-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x3x1024x1024 : Shape := ⟨4, ![4, 3, 1024, 1024]⟩
abbrev S_ : Shape := ⟨0, ![]⟩

class Facts : Prop where
  bcast_S_S4x3x1024x1024 : S_.BroadcastsInDim S4x3x1024x1024 (![] : Fin 0 → Fin S4x3x1024x1024.rank)
  reducesTo_S4x3x1024x1024_S_d0_1_2_3 : S4x3x1024x1024.ReducesTo [0, 1, 2, 3] S_
  h_S_ : 0 < S_.numel

variable [Facts]

def fn {F : FTy → Type} [FloatOps F] (main_arg0 : FVec F S4x3x1024x1024 .f32) : IVec S_ 1 :=
  let main_v0 : FVec F S4x3x1024x1024 .f32 := Host.absf main_arg0
  let main_cst : FVec F S_ .f32 := constant S_ .f32 0x7F800000#32
  let main_v1 : FVec F S4x3x1024x1024 .f32 := broadcastInDim S4x3x1024x1024 ![] bcast_S_S4x3x1024x1024 main_cst
  let main_v2 : IVec S4x3x1024x1024 1 := cmpf .olt main_v0 main_v1
  let main_c : IVec S_ 1 := constantI S_ 1 1#1
  let main_v3 : IVec S_ 1 := (fun x v => Host.reduce IntOp.andi x v reducesTo_S4x3x1024x1024_S_d0_1_2_3 h_S_) main_v2 main_c
  main_v3
-- ==== Kernel.lean ====
abbrev S4x3x1024x1024 : Shape := ⟨4, ![4, 3, 1024, 1024]⟩
abbrev S4x3x64x16x64x16 : Shape := ⟨6, ![4, 3, 64, 16, 64, 16]⟩
abbrev S4x3x64x15x64x15 : Shape := ⟨6, ![4, 3, 64, 15, 64, 15]⟩
abbrev S4x3x63x15x64x15 : Shape := ⟨6, ![4, 3, 63, 15, 64, 15]⟩
abbrev S_ : Shape := ⟨0, ![]⟩
abbrev S4x63x64 : Shape := ⟨3, ![4, 63, 64]⟩
abbrev S4x3x64x15x63x15 : Shape := ⟨6, ![4, 3, 64, 15, 63, 15]⟩
abbrev S4x64x63 : Shape := ⟨3, ![4, 64, 63]⟩
abbrev S4x64x64 : Shape := ⟨3, ![4, 64, 64]⟩
abbrev S4x4096 : Shape := ⟨2, ![4, 4096]⟩
abbrev S4x1x4096 : Shape := ⟨3, ![4, 1, 4096]⟩
abbrev S4x4096x1 : Shape := ⟨3, ![4, 4096, 1]⟩
abbrev S4x4096x4096 : Shape := ⟨3, ![4, 4096, 4096]⟩
abbrev S1x1x1024 : Shape := ⟨3, ![1, 1, 1024]⟩
abbrev S1x1024x1 : Shape := ⟨3, ![1, 1024, 1]⟩
abbrev S1x1024x1024 : Shape := ⟨3, ![1, 1024, 1024]⟩
abbrev S1024x1024 : Shape := ⟨2, ![1024, 1024]⟩
abbrev S1x1024 : Shape := ⟨2, ![1, 1024]⟩
abbrev S1024x1 : Shape := ⟨2, ![1024, 1]⟩

abbrev nBuf : Space → Nat
  | .hbm => 28
  | .vmem => 10
  | .smem => 0
  | _ => 0

abbrev bufTy : (tb : Table) → Fin (tcTables nBuf tb) → BufTy
  | .hbm, ⟨0, _⟩ => ⟨S4x3x1024x1024, .f32⟩
  | .hbm, ⟨1, _⟩ => ⟨S4x3x64x16x64x16, .f32⟩
  | .hbm, ⟨2, _⟩ => ⟨S4x3x64x15x64x15, .f32⟩
  | .hbm, ⟨3, _⟩ => ⟨S4x3x63x15x64x15, .f32⟩
  | .hbm, ⟨4, _⟩ => ⟨S4x3x63x15x64x15, .f32⟩
  | .hbm, ⟨5, _⟩ => ⟨S4x3x63x15x64x15, .f32⟩
  | .hbm, ⟨6, _⟩ => ⟨S4x3x63x15x64x15, .f32⟩
  | .hbm, ⟨7, _⟩ => ⟨S_, .f32⟩
  | .hbm, ⟨8, _⟩ => ⟨S4x63x64, .f32⟩
  | .hbm, ⟨9, _⟩ => ⟨S4x3x64x15x63x15, .f32⟩
  | .hbm, ⟨10, _⟩ => ⟨S4x3x64x15x63x15, .f32⟩
  | .hbm, ⟨11, _⟩ => ⟨S4x3x64x15x63x15, .f32⟩
  | .hbm, ⟨12, _⟩ => ⟨S4x3x64x15x63x15, .f32⟩
  | .hbm, ⟨13, _⟩ => ⟨S_, .f32⟩
  | .hbm, ⟨14, _⟩ => ⟨S4x64x63, .f32⟩
  | .hbm, ⟨15, _⟩ => ⟨S_, .i32⟩
  | .hbm, ⟨16, _⟩ => ⟨S_, .f32⟩
  | .hbm, ⟨17, _⟩ => ⟨S4x64x64, .f32⟩
  | .hbm, ⟨18, _⟩ => ⟨S_, .i32⟩
  | .hbm, ⟨19, _⟩ => ⟨S_, .f32⟩
  | .hbm, ⟨20, _⟩ => ⟨S4x64x64, .f32⟩
  | .hbm, ⟨21, _⟩ => ⟨S4x4096, .f32⟩
  | .hbm, ⟨22, _⟩ => ⟨S4x4096, .f32⟩
  | .hbm, ⟨23, _⟩ => ⟨S4x1x4096, .f32⟩
  | .hbm, ⟨24, _⟩ => ⟨S4x4096x1, .f32⟩
  | .hbm, ⟨25, _⟩ => ⟨S4x4096x1, .f32⟩
  | .hbm, ⟨26, _⟩ => ⟨S4x1x4096, .f32⟩
  | .hbm, ⟨27, _⟩ => ⟨S4x4096x4096, .f32⟩
  | .local _ .vmem, ⟨0, _⟩ => ⟨S1x1x1024, .f32⟩
  | .local _ .vmem, ⟨1, _⟩ => ⟨S1x1x1024, .f32⟩
  | .local _ .vmem, ⟨2, _⟩ => ⟨S1x1024x1, .f32⟩
  | .local _ .vmem, ⟨3, _⟩ => ⟨S1x1024x1, .f32⟩
  | .local _ .vmem, ⟨4, _⟩ => ⟨S1x1024x1, .f32⟩
  | .local _ .vmem, ⟨5, _⟩ => ⟨S1x1024x1, .f32⟩
  | .local _ .vmem, ⟨6, _⟩ => ⟨S1x1x1024, .f32⟩
  | .local _ .vmem, ⟨7, _⟩ => ⟨S1x1x1024, .f32⟩
  | .local _ .vmem, ⟨8, _⟩ => ⟨S1x1024x1024, .f32⟩
  | .local _ .vmem, ⟨9, _⟩ => ⟨S1x1024x1024, .f32⟩
  | _, _ => ⟨S4x3x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_c : Ref sig .tc := ⟨.hbm, 15, rfl⟩
abbrev main_call0_v0 : Ref sig .tc := ⟨.hbm, 16, rfl⟩
abbrev main_v12 : Ref sig .tc := ⟨.hbm, 17, rfl⟩
abbrev main_c_1 : Ref sig .tc := ⟨.hbm, 18, rfl⟩
abbrev main_call1_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  shapeCasts_S4x3x1024x1024_S4x3x64x16x64x16 : S4x3x1024x1024.ShapeCasts S4x3x64x16x64x16
  slices_S4x3x64x16x64x16_S4x3x64x15x64x15_0_0_0_0_0_0 : S4x3x64x16x64x16.Slices ![0, 0, 0, 0, 0, 0] S4x3x64x15x64x15
  slices_S4x3x64x15x64x15_S4x3x63x15x64x15_0_0_1_0_0_0 : S4x3x64x15x64x15.Slices ![0, 0, 1, 0, 0, 0] S4x3x63x15x64x15
  slices_S4x3x64x15x64x15_S4x3x63x15x64x15_0_0_0_0_0_0 : S4x3x64x15x64x15.Slices ![0, 0, 0, 0, 0, 0] S4x3x63x15x64x15
  reducesTo_S4x3x63x15x64x15_S4x63x64_d1_3_5 : S4x3x63x15x64x15.ReducesTo [1, 3, 5] S4x63x64
  h_S_ : 0 < S_.numel
  slices_S4x3x64x15x64x15_S4x3x64x15x63x15_0_0_0_0_1_0 : S4x3x64x15x64x15.Slices ![0, 0, 0, 0, 1, 0] S4x3x64x15x63x15
  slices_S4x3x64x15x64x15_S4x3x64x15x63x15_0_0_0_0_0_0 : S4x3x64x15x64x15.Slices ![0, 0, 0, 0, 0, 0] S4x3x64x15x63x15
  reducesTo_S4x3x64x15x63x15_S4x64x63_d1_3_5 : S4x3x64x15x63x15.ReducesTo [1, 3, 5] S4x64x63
  pads_S4x63x64_S4x64x64_000_010_000 : S4x63x64.Pads (![0, 0, 0] : Fin 3 → Nat) ![0, 1, 0] ![0, 0, 0] S4x64x64
  pads_S4x64x63_S4x64x64_000_000_010 : S4x64x63.Pads (![0, 0, 0] : Fin 3 → Nat) ![0, 0, 1] ![0, 0, 0] S4x64x64
  shapeCasts_S4x64x64_S4x4096 : S4x64x64.ShapeCasts S4x4096
  shapeCasts_S4x4096_S4x1x4096 : S4x4096.ShapeCasts S4x1x4096
  shapeCasts_S4x4096_S4x4096x1 : S4x4096.ShapeCasts S4x4096x1
  iota_S1024x1024_d0_w32 : S1024x1024.Iotas .tc 32 [0]
  iota_S1024x1024_d1_w32 : S1024x1024.Iotas .tc 32 [1]
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1024 : S1x1024.ShapeCasts S1x1024
  broadcasts_S1x1024_S1024x1024 : S1x1024.Broadcasts S1024x1024
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1024x1 : S1024x1.ShapeCasts S1024x1
  broadcasts_S1024x1_S1024x1024 : S1024x1.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024.size a ≤ S4x1x4096.size a
  hwx0_0 : ∀ i : grid0.Coords, EltTy.bits .f32 = 32 ∨ (Rect.block (s := S4x1x4096) S1x1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1.size a ≤ S4x4096x1.size a
  hwx0_1 : ∀ i : grid0.Coords, EltTy.bits .f32 = 32 ∨ (Rect.block (s := S4x4096x1) S1x1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S4x4096x1.size a
  hwx0_2 : ∀ i : grid0.Coords, EltTy.bits .f32 = 32 ∨ (Rect.block (s := S4x4096x1) S1x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S4x1x4096.size a
  hwx0_3 : ∀ i : grid0.Coords, EltTy.bits .f32 = 32 ∨ (Rect.block (s := S4x1x4096) S1x1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S4x4096x4096.size a
  hwx0_4 : ∀ i : grid0.Coords, EltTy.bits .f32 = 32 ∨ (Rect.block (s := S4x4096x4096) S1x1024x1024.size (cc0_transform_4 i) (hinb0_4 i)).WholeWords (EltTy.packing .f32)

variable [Facts₀]

abbrev win0_0 : Pipeline.Window sig grid0 :=
  Pipeline.Window.ofSpec (Memref.whole main_v16) S1x1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1x1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x3x1024x1024 : Shape := ⟨4, ![4, 3, 1024, 1024]⟩
abbrev S4x3x64x16x64x16 : Shape := ⟨6, ![4, 3, 64, 16, 64, 16]⟩
abbrev S4x3x64x15x64x15 : Shape := ⟨6, ![4, 3, 64, 15, 64, 15]⟩
abbrev S4x3x63x15x64x15 : Shape := ⟨6, ![4, 3, 63, 15, 64, 15]⟩
abbrev S_ : Shape := ⟨0, ![]⟩
abbrev S4x63x64 : Shape := ⟨3, ![4, 63, 64]⟩
abbrev S4x3x64x15x63x15 : Shape := ⟨6, ![4, 3, 64, 15, 63, 15]⟩
abbrev S4x64x63 : Shape := ⟨3, ![4, 64, 63]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S4x4096x4096 : Shape := ⟨3, ![4, 4096, 4096]⟩
abbrev S63x64 : Shape := ⟨2, ![63, 64]⟩
abbrev S4032 : Shape := ⟨1, ![4032]⟩
abbrev S4x4032 : Shape := ⟨2, ![4, 4032]⟩
abbrev S4032x1 : Shape := ⟨2, ![4032, 1]⟩
abbrev S4032x2 : Shape := ⟨2, ![4032, 2]⟩
abbrev S64x63 : Shape := ⟨2, ![64, 63]⟩

abbrev nBuf : Space → Nat
  | .hbm => 109
  | .vmem => 0
  | .smem => 0
  | _ => 0

abbrev bufTy : (tb : Table) → Fin (tcTables nBuf tb) → BufTy
  | .hbm, ⟨0, _⟩ => ⟨S4x3x1024x1024, .f32⟩
  | .hbm, ⟨1, _⟩ => ⟨S4x3x64x16x64x16, .f32⟩
  | .hbm, ⟨2, _⟩ => ⟨S4x3x64x15x64x15, .f32⟩
  | .hbm, ⟨3, _⟩ => ⟨S4x3x63x15x64x15, .f32⟩
  | .hbm, ⟨4, _⟩ => ⟨S4x3x63x15x64x15, .f32⟩
  | .hbm, ⟨5, _⟩ => ⟨S4x3x63x15x64x15, .f32⟩
  | .hbm, ⟨6, _⟩ => ⟨S4x3x63x15x64x15, .f32⟩
  | .hbm, ⟨7, _⟩ => ⟨S_, .f32⟩
  | .hbm, ⟨8, _⟩ => ⟨S4x63x64, .f32⟩
  | .hbm, ⟨9, _⟩ => ⟨S4x3x64x15x63x15, .f32⟩
  | .hbm, ⟨10, _⟩ => ⟨S4x3x64x15x63x15, .f32⟩
  | .hbm, ⟨11, _⟩ => ⟨S4x3x64x15x63x15, .f32⟩
  | .hbm, ⟨12, _⟩ => ⟨S4x3x64x15x63x15, .f32⟩
  | .hbm, ⟨13, _⟩ => ⟨S_, .f32⟩
  | .hbm, ⟨14, _⟩ => ⟨S4x64x63, .f32⟩
  | .hbm, ⟨15, _⟩ => ⟨S64, .i32⟩
  | .hbm, ⟨16, _⟩ => ⟨S64x1, .i32⟩
  | .hbm, ⟨17, _⟩ => ⟨S_, .i32⟩
  | .hbm, ⟨18, _⟩ => ⟨S64x1, .i32⟩
  | .hbm, ⟨19, _⟩ => ⟨S64x1, .i32⟩
  | .hbm, ⟨20, _⟩ => ⟨S64, .i32⟩
  | .hbm, ⟨21, _⟩ => ⟨S1x64, .i32⟩
  | .hbm, ⟨22, _⟩ => ⟨S64x64, .i32⟩
  | .hbm, ⟨23, _⟩ => ⟨S64x64, .i32⟩
  | .hbm, ⟨24, _⟩ => ⟨S64x64, .i32⟩
  | .hbm, ⟨25, _⟩ => ⟨S_, .f32⟩
  | .hbm, ⟨26, _⟩ => ⟨S4x4096x4096, .f32⟩
  | .hbm, ⟨27, _⟩ => ⟨S63x64, .i32⟩
  | .hbm, ⟨28, _⟩ => ⟨S4032, .i32⟩
  | .hbm, ⟨29, _⟩ => ⟨S63x64, .i32⟩
  | .hbm, ⟨30, _⟩ => ⟨S4032, .i32⟩
  | .hbm, ⟨31, _⟩ => ⟨S4x4032, .f32⟩
  | .hbm, ⟨32, _⟩ => ⟨S_, .i32⟩
  | .hbm, ⟨33, _⟩ => ⟨S4032, .i32⟩
  | .hbm, ⟨34, _⟩ => ⟨S4032, .i1⟩
  | .hbm, ⟨35, _⟩ => ⟨S_, .i32⟩
  | .hbm, ⟨36, _⟩ => ⟨S4032, .i32⟩
  | .hbm, ⟨37, _⟩ => ⟨S4032, .i32⟩
  | .hbm, ⟨38, _⟩ => ⟨S4032, .i32⟩
  | .hbm, ⟨39, _⟩ => ⟨S_, .i32⟩
  | .hbm, ⟨40, _⟩ => ⟨S4032, .i32⟩
  | .hbm, ⟨41, _⟩ => ⟨S4032, .i1⟩
  | .hbm, ⟨42, _⟩ => ⟨S_, .i32⟩
  | .hbm, ⟨43, _⟩ => ⟨S4032, .i32⟩
  | .hbm, ⟨44, _⟩ => ⟨S4032, .i32⟩
  | .hbm, ⟨45, _⟩ => ⟨S4032, .i32⟩
  | .hbm, ⟨46, _⟩ => ⟨S4032x1, .i32⟩
  | .hbm, ⟨47, _⟩ => ⟨S4032x1, .i32⟩
  | .hbm, ⟨48, _⟩ => ⟨S4032x2, .i32⟩
  | .hbm, ⟨49, _⟩ => ⟨S4x4096x4096, .f32⟩
  | .hbm, ⟨50, _⟩ => ⟨S_, .i32⟩
  | .hbm, ⟨51, _⟩ => ⟨S4032, .i32⟩
  | .hbm, ⟨52, _⟩ => ⟨S4032, .i1⟩
  | .hbm, ⟨53, _⟩ => ⟨S_, .i32⟩
  | .hbm, ⟨54, _⟩ => ⟨S4032, .i32⟩
  | .hbm, ⟨55, _⟩ => ⟨S4032, .i32⟩
  | .hbm, ⟨56, _⟩ => ⟨S4032, .i32⟩
  | .hbm, ⟨57, _⟩ => ⟨S_, .i32⟩
  | .hbm, ⟨58, _⟩ => ⟨S4032, .i32⟩
  | .hbm, ⟨59, _⟩ => ⟨S4032, .i1⟩
  | .hbm, ⟨60, _⟩ => ⟨S_, .i32⟩
  | .hbm, ⟨61, _⟩ => ⟨S4032, .i32⟩
  | .hbm, ⟨62, _⟩ => ⟨S4032, .i32⟩
  | .hbm, ⟨63, _⟩ => ⟨S4032, .i32⟩
  | .hbm, ⟨64, _⟩ => ⟨S4032x1, .i32⟩
  | .hbm, ⟨65, _⟩ => ⟨S4032x1, .i32⟩
  | .hbm, ⟨66, _⟩ => ⟨S4032x2, .i32⟩
  | .hbm, ⟨67, _⟩ => ⟨S4x4096x4096, .f32⟩
  | .hbm, ⟨68, _⟩ => ⟨S64x63, .i32⟩
  | .hbm, ⟨69, _⟩ => ⟨S4032, .i32⟩
  | .hbm, ⟨70, _⟩ => ⟨S64x63, .i32⟩
  | .hbm, ⟨71, _⟩ => ⟨S4032, .i32⟩
  | .hbm, ⟨72, _⟩ => ⟨S4x4032, .f32⟩
  | .hbm, ⟨73, _⟩ => ⟨S_, .i32⟩
  | .hbm, ⟨74, _⟩ => ⟨S4032, .i32⟩
  | .hbm, ⟨75, _⟩ => ⟨S4032, .i1⟩
  | .hbm, ⟨76, _⟩ => ⟨S_, .i32⟩
  | .hbm, ⟨77, _⟩ => ⟨S4032, .i32⟩
  | .hbm, ⟨78, _⟩ => ⟨S4032, .i32⟩
  | .hbm, ⟨79, _⟩ => ⟨S4032, .i32⟩
  | .hbm, ⟨80, _⟩ => ⟨S_, .i32⟩
  | .hbm, ⟨81, _⟩ => ⟨S4032, .i32⟩
  | .hbm, ⟨82, _⟩ => ⟨S4032, .i1⟩
  | .hbm, ⟨83, _⟩ => ⟨S_, .i32⟩
  | .hbm, ⟨84, _⟩ => ⟨S4032, .i32⟩
  | .hbm, ⟨85, _⟩ => ⟨S4032, .i32⟩
  | .hbm, ⟨86, _⟩ => ⟨S4032, .i32⟩
  | .hbm, ⟨87, _⟩ => ⟨S4032x1, .i32⟩
  | .hbm, ⟨88, _⟩ => ⟨S4032x1, .i32⟩
  | .hbm, ⟨89, _⟩ => ⟨S4032x2, .i32⟩
  | .hbm, ⟨90, _⟩ => ⟨S4x4096x4096, .f32⟩
  | .hbm, ⟨91, _⟩ => ⟨S_, .i32⟩
  | .hbm, ⟨92, _⟩ => ⟨S4032, .i32⟩
  | .hbm, ⟨93, _⟩ => ⟨S4032, .i1⟩
  | .hbm, ⟨94, _⟩ => ⟨S_, .i32⟩
  | .hbm, ⟨95, _⟩ => ⟨S4032, .i32⟩
  | .hbm, ⟨96, _⟩ => ⟨S4032, .i32⟩
  | .hbm, ⟨97, _⟩ => ⟨S4032, .i32⟩
  | .hbm, ⟨98, _⟩ => ⟨S_, .i32⟩
  | .hbm, ⟨99, _⟩ => ⟨S4032, .i32⟩
  | .hbm, ⟨100, _⟩ => ⟨S4032, .i1⟩
  | .hbm, ⟨101, _⟩ => ⟨S_, .i32⟩
  | .hbm, ⟨102, _⟩ => ⟨S4032, .i32⟩
  | .hbm, ⟨103, _⟩ => ⟨S4032, .i32⟩
  | .hbm, ⟨104, _⟩ => ⟨S4032, .i32⟩
  | .hbm, ⟨105, _⟩ => ⟨S4032x1, .i32⟩
  | .hbm, ⟨106, _⟩ => ⟨S4032x1, .i32⟩
  | .hbm, ⟨107, _⟩ => ⟨S4032x2, .i32⟩
  | .hbm, ⟨108, _⟩ => ⟨S4x4096x4096, .f32⟩
  | _, _ => ⟨S4x3x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_1 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_c_2 : Ref sig .tc := ⟨.hbm, 32, rfl⟩
abbrev main_v27 : Ref sig .tc := ⟨.hbm, 33, rfl⟩
abbrev main_v28 : Ref sig .tc := ⟨.hbm, 34, rfl⟩
abbrev main_c_3 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_c_4 : Ref sig .tc := ⟨.hbm, 39, rfl⟩
abbrev main_v32 : Ref sig .tc := ⟨.hbm, 40, rfl⟩
abbrev main_v33 : Ref sig .tc := ⟨.hbm, 41, rfl⟩
abbrev main_c_5 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_c_6 : Ref sig .tc := ⟨.hbm, 50, rfl⟩
abbrev main_v41 : Ref sig .tc := ⟨.hbm, 51, rfl⟩
abbrev main_v42 : Ref sig .tc := ⟨.hbm, 52, rfl⟩
abbrev main_c_7 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_c_8 : Ref sig .tc := ⟨.hbm, 57, rfl⟩
abbrev main_v46 : Ref sig .tc := ⟨.hbm, 58, rfl⟩
abbrev main_v47 : Ref sig .tc := ⟨.hbm, 59, rfl⟩
abbrev main_c_9 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_c_10 : Ref sig .tc := ⟨.hbm, 73, rfl⟩
abbrev main_v60 : Ref sig .tc := ⟨.hbm, 74, rfl⟩
abbrev main_v61 : Ref sig .tc := ⟨.hbm, 75, rfl⟩
abbrev main_c_11 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_c_12 : Ref sig .tc := ⟨.hbm, 80, rfl⟩
abbrev main_v65 : Ref sig .tc := ⟨.hbm, 81, rfl⟩
abbrev main_v66 : Ref sig .tc := ⟨.hbm, 82, rfl⟩
abbrev main_c_13 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_c_14 : Ref sig .tc := ⟨.hbm, 91, rfl⟩
abbrev main_v74 : Ref sig .tc := ⟨.hbm, 92, rfl⟩
abbrev main_v75 : Ref sig .tc := ⟨.hbm, 93, rfl⟩
abbrev main_c_15 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_c_16 : Ref sig .tc := ⟨.hbm, 98, rfl⟩
abbrev main_v79 : Ref sig .tc := ⟨.hbm, 99, rfl⟩
abbrev main_v80 : Ref sig .tc := ⟨.hbm, 100, rfl⟩
abbrev main_c_17 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩

abbrev nD : Nat := 1
abbrev τ : Topo := Topo.v7x

variable {F : FTy → Type} [FloatOps F]

class Facts₀ : Prop where
  shapeCasts_S4x3x1024x1024_S4x3x64x16x64x16 : S4x3x1024x1024.ShapeCasts S4x3x64x16x64x16
  slices_S4x3x64x16x64x16_S4x3x64x15x64x15_0_0_0_0_0_0 : S4x3x64x16x64x16.Slices ![0, 0, 0, 0, 0, 0] S4x3x64x15x64x15
  slices_S4x3x64x15x64x15_S4x3x63x15x64x15_0_0_1_0_0_0 : S4x3x64x15x64x15.Slices ![0, 0, 1, 0, 0, 0] S4x3x63x15x64x15
  slices_S4x3x64x15x64x15_S4x3x63x15x64x15_0_0_0_0_0_0 : S4x3x64x15x64x15.Slices ![0, 0, 0, 0, 0, 0] S4x3x63x15x64x15
  reducesTo_S4x3x63x15x64x15_S4x63x64_d1_3_5 : S4x3x63x15x64x15.ReducesTo [1, 3, 5] S4x63x64
  h_S_ : 0 < S_.numel
  slices_S4x3x64x15x64x15_S4x3x64x15x63x15_0_0_0_0_1_0 : S4x3x64x15x64x15.Slices ![0, 0, 0, 0, 1, 0] S4x3x64x15x63x15
  slices_S4x3x64x15x64x15_S4x3x64x15x63x15_0_0_0_0_0_0 : S4x3x64x15x64x15.Slices ![0, 0, 0, 0, 0, 0] S4x3x64x15x63x15
  reducesTo_S4x3x64x15x63x15_S4x64x63_d1_3_5 : S4x3x64x15x63x15.ReducesTo [1, 3, 5] S4x64x63
  bcast_S64_S64x1_0 : S64.BroadcastsInDim S64x1 (![0] : Fin 1 → Fin S64x1.rank)
  bcast_S_S64x1 : S_.BroadcastsInDim S64x1 (![] : Fin 0 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S_S4x4096x4096 : S_.BroadcastsInDim S4x4096x4096 (![] : Fin 0 → Fin S4x4096x4096.rank)
  slices_S64x64_S63x64_1_0 : S64x64.Slices ![1, 0] S63x64
  shapeCasts_S63x64_S4032 : S63x64.ShapeCasts S4032
  slices_S64x64_S63x64_0_0 : S64x64.Slices ![0, 0] S63x64
  shapeCasts_S4x63x64_S4x4032 : S4x63x64.ShapeCasts S4x4032
  bcast_S_S4032 : S_.BroadcastsInDim S4032 (![] : Fin 0 → Fin S4032.rank)
  bcast_S4032_S4032x1_0 : S4032.BroadcastsInDim S4032x1 (![0] : Fin 1 → Fin S4032x1.rank)
  concatenates_S4032x1_S4032x1_S4032x2_d1 : Shape.Concatenates [S4032x1, S4032x1] S4032x2 1
  slices_S64x64_S64x63_0_0 : S64x64.Slices ![0, 0] S64x63
  shapeCasts_S64x63_S4032 : S64x63.ShapeCasts S4032
  slices_S64x64_S64x63_0_1 : S64x64.Slices ![0, 1] S64x63
  shapeCasts_S4x64x63_S4x4032 : S4x64x63.ShapeCasts S4x4032
  scatter_S4x4096x4096_S4032x2_S4x4032_0_12_12_1_wf : ScatterDims.WF S4x4096x4096 S4032x2 S4x4032 [0] [1, 2] [1, 2] 1

variable [Facts₀]

def scatter_S4x4096x4096_S4032x2_S4x4032_0_12_12_1 : ScatterDims S4x4096x4096 S4032x2 S4x4032 where
  updateWindowDims := [0]
  insertedWindowDims := [1, 2]
  scatterDimsToOperandDims := [1, 2]
  indexVectorDim := 1
  wf := scatter_S4x4096x4096_S4032x2_S4x4032_0_12_12_1_wf

class Facts : Prop extends Facts₀ where

variable [Facts]
-- ==== Proof.Spec.lean ====
/-
  The banded adjacency matrix of a 64 × 64 grid graph as ONE function of its edge weights.
  Node `n = 64·y + x`. The vertical edge between `(y, x)` and `(y+1, x)` joins nodes `n` and `n + 64`; the
  horizontal edge between `(y, x)` and `(y, x+1)` joins `n` and `n + 1` when `x < 63`. With the vertical
  weights laid flat as `[B, 4096]` (zero from 4032 on: no row below the last) and the horizontal ones likewise
  (zero where `n % 64 = 63`: no column right of the last), entry `(r, c)` of the matrix is the vertical weight
  at `min r c` when `|r − c| = 64`, the horizontal weight at `min r c` when `|r − c| = 1`, and zero elsewhere.
  `padV` / `padH` are those flat layouts made from the unpadded flat weights `[B, 4032]`.
-/
import Idealize.ShloMosaic.PureOps.Ideal
import Idealize.ShloMosaic.Lib.ValueIdx

noncomputable section

namespace Cert.Adj

open Idealize.ShloMosaic Idealize.ShloMosaic.ValueIdx

/-- The matrix `[4, 4096, 4096]`. -/
abbrev SA : Shape := ⟨3, ![4, 4096, 4096]⟩
/-- Flat padded weights `[4, 4096]`. -/
abbrev SF : Shape := ⟨2, ![4, 4096]⟩
/-- Flat unpadded weights `[4, 4032]`. -/
abbrev SR : Shape := ⟨2, ![4, 4032]⟩

/-- The zero weight: the float word `0x00000000` read at the ideal instance. -/
abbrev zf : Ideal .f32 := Ideal.ofBits .f32 0x00000000#32

variable {α : Type}

/-- Entry `(b, r, c)`: the four off-diagonals `r − c = 64, −64, −1, 1` read the flat padded weights at the
    column, the row, the row, the column; every other entry is `z`. -/
def band (z : α) (dvf dhf : SF.Idx → α) : SA.Idx → α := fun i =>
  if (i 1).val = (i 2).val + 64 then dvf (ix2 (i 0) (i 2))
  else if (i 2).val = (i 1).val + 64 then dvf (ix2 (i 0) (i 1))
  else if (i 2).val = (i 1).val + 1 then dhf (ix2 (i 0) (i 1))
  else if (i 1).val = (i 2).val + 1 then dhf (ix2 (i 0) (i 2))
  else z

/-- The vertical weights `[B, 63·64]` laid flat over all 4096 nodes: nodes of the last row have none. -/
def padV (z : α) (dvr : SR.Idx → α) : SF.Idx → α := fun j =>
  if h : (j 1).val < 4032 then dvr (ix2 (j 0) ⟨(j 1).val, h⟩) else z

/-- The horizontal weights `[B, 64·63]` laid flat over all 4096 nodes: node `64·y + x` reads entry
    `63·y + x`, and nodes of the last column have none. -/
def padH (z : α) (dhr : SR.Idx → α) : SF.Idx → α := fun j =>
  if h : (j 1).val % 64 < 63 then
    dhr (ix2 (j 0) ⟨(j 1).val / 64 * 63 + (j 1).val % 64, by have h' : (j 1).val < 4096 := (j 1).isLt; omega⟩)
  else z

end Cert.Adj

end
-- ==== Proof.KernelBlock.lean ====
/-
  What one grid point stores, read at an index of its 1024 × 1024 tile. At point `(b, ri, ci)` the tile's entry
  `(p, q)` is matrix entry `(r, c) = (1024·ri + p, 1024·ci + q)`; the body compares `r − c` (in 32-bit words, where
  no wrap can occur below 4096) with 64, −64, −1 and 1 and selects the row input at `q`, the column input at `p`,
  the second column input at `p`, the second row input at `q`, else zero.
-/
import proofs.«171796_j78520592106142_1_alg».proof.Proof.KernelIdealFrame
import proofs.«171796_j78520592106142_1_alg».proof.Proof.Spec
import Idealize.ShloMosaic.Lib.ValueIdx
import Idealize.ShloMosaic.Lib.ValueLayout
import Idealize.ShloMosaic.Lib.Pipeline.Value

set_option maxRecDepth 16384

noncomputable section

namespace Cert.KernelIdeal.AdjBlock

open Cert.KernelIdeal Cert.KernelIdeal.Gen Cert.KernelIdeal.GenP Idealize.ShloMosaic Idealize.ShloMosaic.TcCoe
  Idealize.ShloMosaic.ValueIdx Cert.Adj

/-- The three offsets of a whole-block rectangle are zero. -/
theorem hz3 : (![0, 0, 0] : Fin 3 → Nat) = fun _ => 0 := funext fun a => by fin_cases a <;> rfl

/-- The body's word of row minus column is the difference of the two positions' words. -/
theorem word_eq (a p b q : Nat) :
    IntOp.subi (IntOp.addi (Scalar.muli (BitVec.ofNat 32 a) 1024#32) (BitVec.ofNat 32 p))
        (IntOp.addi (Scalar.muli (BitVec.ofNat 32 b) 1024#32) (BitVec.ofNat 32 q))
      = BitVec.ofNat 32 (a * 1024 + p) - BitVec.ofNat 32 (b * 1024 + q) := by
  simp [IntOp.subi, IntOp.addi, Scalar.muli, IntOp.muli, BitVec.ofNat_add, BitVec.ofNat_mul]

/-- The equality comparison's bit is set exactly when the words are equal. -/
theorem cmpi_eq_one {w : Nat} (x y : BitVec w) : IntOp.cmpi .eq x y = 1#1 ↔ x = y := by
  show BitVec.ofBool (x == y) = 1#1 ↔ x = y
  by_cases h : x = y
  · subst h; simp
  · have hb : (x == y) = false := beq_eq_false_iff_ne.mpr h
    rw [hb]; exact ⟨fun h' => absurd h' (by decide), fun h' => absurd h' h⟩

/-- Below 4096 the difference of two words is the difference of the numbers modulo 2^32. -/
theorem sub_eq_iff (r c k : Nat) (hr : r < 4096) (hc : c < 4096) (hk : k < 4294967296) :
    BitVec.ofNat 32 r - BitVec.ofNat 32 c = BitVec.ofNat 32 k ↔ (r + 4294967296 - c) % 4294967296 = k := by
  rw [← BitVec.toNat_inj]
  simp only [BitVec.toNat_sub, BitVec.toNat_ofNat]
  omega

section Reads
variable {α : Type}

/-- A row block [1,1,1024] spread over the tile: entry (p, q) reads (0, 0, q). -/
theorem row_apply (x : S1x1x1024.Idx → α) (h1 : S1x1x1024.ShapeCasts S1x1024) (h2 : S1x1024.ShapeCasts S1x1024)
    (h3 : S1x1024.Broadcasts S1024x1024) (p q : Fin 1024) :
    broadcastTo S1024x1024 (shapeCast S1x1024 (shapeCast S1x1024 x h1) h2) h3 (ix2 p q) = x (ix3 0 0 q) := by
  rw [shapeCast_self]
  refine (broadcastTo_apply _ h3 (ix2 p q) (ix2 0 q) ?_).trans ?_
  · intro a
    match a with
    | ⟨0, _⟩ => rfl
    | ⟨1, _⟩ => rfl
  · refine shapeCast_apply x h1 (ix2 0 q) (ix3 0 0 q) ?_
    rw [Shape.rowMajor_val_three, Shape.rowMajor_val_two]
    show (0 * 1 + 0) * 1024 + q.val = 0 * 1024 + q.val
    omega

/-- A column block [1,1024,1] spread over the tile: entry (p, q) reads (0, p, 0). -/
theorem col_apply (x : S1x1024x1.Idx → α) (h1 : S1x1024x1.ShapeCasts S1024x1) (h2 : S1024x1.ShapeCasts S1024x1)
    (h3 : S1024x1.Broadcasts S1024x1024) (p q : Fin 1024) :
    broadcastTo S1024x1024 (shapeCast S1024x1 (shapeCast S1024x1 x h1) h2) h3 (ix2 p q) = x (ix3 0 p 0) := by
  rw [shapeCast_self]
  refine (broadcastTo_apply _ h3 (ix2 p q) (ix2 p 0) ?_).trans ?_
  · intro a
    match a with
    | ⟨0, _⟩ => rfl
    | ⟨1, _⟩ => rfl
  · refine shapeCast_apply x h1 (ix2 p 0) (ix3 0 p 0) ?_
    rw [Shape.rowMajor_val_three, Shape.rowMajor_val_two]
    show (0 * 1024 + p.val) * 1 + 0 = p.val * 1 + 0
    omega

end Reads

section Pointwise
variable {s : Shape} {w : Nat}

/-- An integer comparison at an index compares the elements. -/
theorem cmpi_apply (pr : CmpIPredicate) (a b : IVec s w) (j : s.Idx) : cmpi pr a b j = IntOp.cmpi pr (a j) (b j) := rfl
/-- An integer difference at an index is the difference of the elements. -/
theorem subi_apply (a b : IVec s w) (j : s.Idx) : subi a b j = IntOp.subi (a j) (b j) := rfl
/-- An integer sum at an index is the sum of the elements. -/
theorem addi_apply (a b : IVec s w) (j : s.Idx) : addi a b j = IntOp.addi (a j) (b j) := rfl

end Pointwise

/-- A select on "row − column is the word of k", for positions below 4096, is the conditional on any proposition
    equivalent to that congruence modulo 2^32. -/
theorem select_cmpi {α : Type} (r c k : Nat) (hr : r < 4096) (hc : c < 4096) (hk : k < 4294967296) (P : Prop) [Decidable P]
    (hP : (r + 4294967296 - c) % 4294967296 = k ↔ P) (A B : α) :
    Scalar.select (IntOp.cmpi .eq (BitVec.ofNat 32 r - BitVec.ofNat 32 c) (BitVec.ofNat 32 k)) A B
      = if P then A else B := by
  by_cases h : P
  · rw [if_pos h, (cmpi_eq_one _ _).mpr ((sub_eq_iff r c k hr hc hk).mpr (hP.mpr h)), select_one]
  · rw [if_neg h, eq_zero_of_ne_one (fun h' => h (hP.mp ((sub_eq_iff r c k hr hc hk).mp ((cmpi_eq_one _ _).mp h')))),
      select_zero]

/-- The body's value at entry (p, q) of the tile: four selects on the word of row minus column. -/
theorem pay2_apply (i : grid0.Coords) (x0 : Vec Ideal S1x1x1024 .f32) (x1 x2 : Vec Ideal S1x1024x1 .f32)
    (x3 : Vec Ideal S1x1x1024 .f32) (p q : Fin 1024) :
    k0_pay2 (F := Ideal) i x0 x1 x2 x3 (ix2 p q)
      = Scalar.select (IntOp.cmpi .eq (BitVec.ofNat 32 ((i 1).val * 1024 + p.val) - BitVec.ofNat 32 ((i 2).val * 1024 + q.val)) (BitVec.ofNat 32 64))
          (x0 (ix3 0 0 q))
          (Scalar.select (IntOp.cmpi .eq (BitVec.ofNat 32 ((i 1).val * 1024 + p.val) - BitVec.ofNat 32 ((i 2).val * 1024 + q.val)) (BitVec.ofNat 32 4294967232))
            (x1 (ix3 0 p 0))
            (Scalar.select (IntOp.cmpi .eq (BitVec.ofNat 32 ((i 1).val * 1024 + p.val) - BitVec.ofNat 32 ((i 2).val * 1024 + q.val)) (BitVec.ofNat 32 4294967295))
              (x2 (ix3 0 p 0))
              (Scalar.select (IntOp.cmpi .eq (BitVec.ofNat 32 ((i 1).val * 1024 + p.val) - BitVec.ofNat 32 ((i 2).val * 1024 + q.val)) (BitVec.ofNat 32 1))
                (x3 (ix3 0 0 q)) (Ideal.ofBits .f32 0x00000000#32)))) := by
  unfold k0_pay2
  simp only [select_apply, row_apply, col_apply, broadcast_apply, cmpi_apply, subi_apply, addi_apply]
  have e0 : iota Kind.tc S1024x1024 32 [0] iota_S1024x1024_d0_w32 (ix2 p q) = BitVec.ofNat 32 p.val :=
    iota_single_apply .tc S1024x1024 32 0 iota_S1024x1024_d0_w32 (ix2 p q)
  have e1 : iota Kind.tc S1024x1024 32 [1] iota_S1024x1024_d1_w32 (ix2 p q) = BitVec.ofNat 32 q.val :=
    iota_single_apply .tc S1024x1024 32 1 iota_S1024x1024_d1_w32 (ix2 p q)
  rw [e0, e1, ← word_eq]
  rfl

/-- The stored tile at `(0, p, q)`, from the four input blocks. -/
theorem out_apply (i : grid0.Coords) (x0 : Vec Ideal S1x1x1024 .f32) (x1 x2 : Vec Ideal S1x1024x1 .f32)
    (x3 : Vec Ideal S1x1x1024 .f32) (p q : Fin 1024) :
    (out0_4 (F := Ideal) i x0 x1 x2 x3 : S1x1024x1024.Idx → Ideal .f32) (ix3 0 p q)
      = if (i 1).val * 1024 + p.val = (i 2).val * 1024 + q.val + 64 then x0 (ix3 0 0 q)
        else if (i 2).val * 1024 + q.val = (i 1).val * 1024 + p.val + 64 then x1 (ix3 0 p 0)
        else if (i 2).val * 1024 + q.val = (i 1).val * 1024 + p.val + 1 then x2 (ix3 0 p 0)
        else if (i 1).val * 1024 + p.val = (i 2).val * 1024 + q.val + 1 then x3 (ix3 0 0 q)
        else zf := by
  have hi1 : (i 1).val < 4 := (i 1).isLt
  have hi2 : (i 2).val < 4 := (i 2).isLt
  have hp : p.val < 1024 := p.isLt
  have hq : q.val < 1024 := q.isLt
  have hr : (i 1).val * 1024 + p.val < 4096 := by omega
  have hc : (i 2).val * 1024 + q.val < 4096 := by omega
  unfold out0_4
  rw [View.canon_unit_zero hz3]
  simp only [View.ld_unit_zero (S := S1x1x1024) hz3, View.ld_unit_zero (S := S1x1024x1) hz3]
  unfold k0_pay1
  refine (shapeCast_apply _ _ (ix3 0 p q) (ix2 p q) ?_).trans ?_
  · rw [Shape.rowMajor_val_three, Shape.rowMajor_val_two]
    show p.val * 1024 + q.val = (0 * 1024 + p.val) * 1024 + q.val
    omega
  rw [pay2_apply,
    select_cmpi _ _ 64 hr hc (by omega) ((i 1).val * 1024 + p.val = (i 2).val * 1024 + q.val + 64) (by omega),
    select_cmpi _ _ 4294967232 hr hc (by omega) ((i 2).val * 1024 + q.val = (i 1).val * 1024 + p.val + 64) (by omega),
    select_cmpi _ _ 4294967295 hr hc (by omega) ((i 2).val * 1024 + q.val = (i 1).val * 1024 + p.val + 1) (by omega),
    select_cmpi _ _ 1 hr hc (by omega) ((i 1).val * 1024 + p.val = (i 2).val * 1024 + q.val + 1) (by omega)]

end Cert.KernelIdeal.AdjBlock

end
-- ==== Proof.KernelHost.lean ====
/-
  What the kernel's four input arrays hold when the region is entered. The host has summed the patch differences
  into the vertical weights `[4, 63, 64]` and the horizontal weights `[4, 64, 63]` (the same operations as the
  reference), padded each to `[4, 64, 64]` with a zero row below, respectively a zero column on the right, and
  laid it flat as `[4, 4096]`; the four inputs are that flat array as a row `[4, 1, 4096]` or as a column
  `[4, 4096, 1]`. Read at an index, each is the flat padded weight `padV` / `padH` of the unpadded flat weights.
-/
import proofs.«171796_j78520592106142_1_alg».proof.Proof.KernelIdealFrame
import proofs.«171796_j78520592106142_1_alg».proof.Proof.Gen.ReferenceIdeal.Read
import proofs.«171796_j78520592106142_1_alg».proof.Proof.Spec
import Idealize.ShloMosaic.Lib.ValueIdx
import Idealize.ShloMosaic.Lib.ValueLayout
import Idealize.ShloMosaic.Lib.KernelVsHost
import Idealize.ShloMosaic.Lib.Pipeline.Value
import Idealize.ShloMosaic.Lib.StableHlo.Run

set_option maxRecDepth 16384

noncomputable section

namespace Cert.KernelIdeal.AdjHost

open Cert.KernelIdeal Cert.KernelIdeal.Gen Cert.KernelIdeal.GenP Idealize.ShloMosaic Idealize.ShloMosaic.TcCoe
  Idealize.ShloMosaic.ValueIdx Idealize.SL.Sem Cert.Adj

variable (m : (ℓ : Loc nD τ sig) → Buf (Elt Ideal) ℓ)

/-- Core `c`'s argument array. -/
abbrev arg (c : Dev nD) : (⟨S4x3x1024x1024, .f32⟩ : BufTy).Contents (Elt Ideal) := m ((c.tc : Thread nD τ).loc main_arg0)

/-- The flat padded vertical weights, the kernel's name for them. -/
abbrev dvf (c : Dev nD) : SF.Idx → Ideal .f32 := padV zf (Cert.ReferenceIdeal.Read.val_main_v26 (F := Ideal) (arg m c))
/-- The flat padded horizontal weights. -/
abbrev dhf (c : Dev nD) : SF.Idx → Ideal .f32 := padH zf (Cert.ReferenceIdeal.Read.val_main_v59 (F := Ideal) (arg m c))

/-! ## Layout operations of the host prefix read at an index -/

section Index
variable {α : Type}

/-- The flat array `[4, 4096]` as a row `[4, 1, 4096]`: entry `(b, 0, n)` is entry `(b, n)`. -/
theorem row_apply (y : S4x4096.Idx → α) (h : S4x4096.ShapeCasts S4x1x4096) (b : Fin 4) (n : Fin 4096) :
    shapeCast S4x1x4096 y h (ix3 b 0 n) = y (ix2 b n) :=
  shapeCast_apply y h (ix3 b 0 n) (ix2 b n) (by
    rewrite [Shape.rowMajor_val_two, Shape.rowMajor_val_three]
    show b.val * 4096 + n.val = (b.val * 1 + 0) * 4096 + n.val
    omega)

/-- The flat array `[4, 4096]` as a column `[4, 4096, 1]`: entry `(b, n, 0)` is entry `(b, n)`. -/
theorem col_apply (y : S4x4096.Idx → α) (h : S4x4096.ShapeCasts S4x4096x1) (b : Fin 4) (n : Fin 4096) :
    shapeCast S4x4096x1 y h (ix3 b n 0) = y (ix2 b n) :=
  shapeCast_apply y h (ix3 b n 0) (ix2 b n) (by
    rewrite [Shape.rowMajor_val_two, Shape.rowMajor_val_three]
    show b.val * 4096 + n.val = (b.val * 4096 + n.val) * 1 + 0
    omega)

/-- The square `[4, 64, 64]` laid flat: entry `(b, n)` of `[4, 4096]` is entry `(b, n / 64, n % 64)`. -/
theorem flat_apply (y : S4x64x64.Idx → α) (h : S4x64x64.ShapeCasts S4x4096) (b : Fin 4) (n : Fin 4096) :
    shapeCast S4x4096 y h (ix2 b n)
      = y (ix3 b (⟨n.val / 64, by have := n.isLt; omega⟩ : Fin 64) (⟨n.val % 64, by omega⟩ : Fin 64)) :=
  shapeCast_apply y h (ix2 b n) _ (by
    rewrite [Shape.rowMajor_val_two, Shape.rowMajor_val_three]
    have hn : n.val < 4096 := n.isLt
    show (b.val * 64 + n.val / 64) * 64 + n.val % 64 = b.val * 4096 + n.val
    omega)

/-- The vertical weights `[4, 63, 64]` laid flat: entry `(b, 64·y + x)` of `[4, 4032]` is entry `(b, y, x)`. -/
theorem unflatV_apply (w : S4x63x64.Idx → α) (h : S4x63x64.ShapeCasts SR) (b : Fin 4) (y : Fin 63) (x : Fin 64)
    (k : Fin 4032) (hk : k.val = y.val * 64 + x.val) : shapeCast SR w h (ix2 b k) = w (ix3 b y x) :=
  shapeCast_apply w h (ix2 b k) (ix3 b y x) (by
    rewrite [Shape.rowMajor_val_two, Shape.rowMajor_val_three]
    show (b.val * 63 + y.val) * 64 + x.val = b.val * 4032 + k.val
    omega)

/-- The horizontal weights `[4, 64, 63]` laid flat: entry `(b, 63·y + x)` of `[4, 4032]` is entry `(b, y, x)`. -/
theorem unflatH_apply (w : S4x64x63.Idx → α) (h : S4x64x63.ShapeCasts SR) (b : Fin 4) (y : Fin 64) (x : Fin 63)
    (k : Fin 4032) (hk : k.val = y.val * 63 + x.val) : shapeCast SR w h (ix2 b k) = w (ix3 b y x) :=
  shapeCast_apply w h (ix2 b k) (ix3 b y x) (by
    rewrite [Shape.rowMajor_val_two, Shape.rowMajor_val_three]
    show (b.val * 64 + y.val) * 63 + x.val = b.val * 4032 + k.val
    omega)

/-- The vertical weights `[4, 63, 64]` with one row of `v` appended below: rows `0 … 62` are the weights', row 63
    is `v`. -/
theorem padRow_apply (w : S4x63x64.Idx → α) (v : S_.Idx → α)
    (hp : S4x63x64.Pads (![0, 0, 0] : Fin 3 → Nat) ![0, 1, 0] ![0, 0, 0] S4x64x64) (hu : 0 < S_.numel)
    (b : Fin 4) (y x : Fin 64) :
    pad S4x64x64 ![0, 0, 0] ![0, 1, 0] ![0, 0, 0] w v hp hu (ix3 b y x)
      = if h : y.val < 63 then w (ix3 b (⟨y.val, h⟩ : Fin 63) x) else v (Shape.Idx.first hu) := by
  by_cases h : y.val < 63
  · rw [dif_pos h]
    exact pad_apply_of_inside _ _ _ w v hp hu _ (ix3 b (⟨y.val, h⟩ : Fin 63) x) (by
      intro a
      match a with
      | ⟨0, _⟩ => show b.val = 0 + b.val * (0 + 1); omega
      | ⟨1, _⟩ => show y.val = 0 + y.val * (0 + 1); omega
      | ⟨2, _⟩ => show x.val = 0 + x.val * (0 + 1); omega)
  · rw [dif_neg h]
    exact pad_apply_of_not_inside _ _ _ w v hp hu _ (1 : Fin 3) (by
      intro hin
      have e : (y.val - 0) / (0 + 1) < 63 := hin.2.2
      omega)

/-- The horizontal weights `[4, 64, 63]` with one column of `v` appended on the right: columns `0 … 62` are the
    weights', column 63 is `v`. -/
theorem padCol_apply (w : S4x64x63.Idx → α) (v : S_.Idx → α)
    (hp : S4x64x63.Pads (![0, 0, 0] : Fin 3 → Nat) ![0, 0, 1] ![0, 0, 0] S4x64x64) (hu : 0 < S_.numel)
    (b : Fin 4) (y x : Fin 64) :
    pad S4x64x64 ![0, 0, 0] ![0, 0, 1] ![0, 0, 0] w v hp hu (ix3 b y x)
      = if h : x.val < 63 then w (ix3 b y (⟨x.val, h⟩ : Fin 63)) else v (Shape.Idx.first hu) := by
  by_cases h : x.val < 63
  · rw [dif_pos h]
    exact pad_apply_of_inside _ _ _ w v hp hu _ (ix3 b y (⟨x.val, h⟩ : Fin 63)) (by
      intro a
      match a with
      | ⟨0, _⟩ => show b.val = 0 + b.val * (0 + 1); omega
      | ⟨1, _⟩ => show y.val = 0 + y.val * (0 + 1); omega
      | ⟨2, _⟩ => show x.val = 0 + x.val * (0 + 1); omega)
  · rw [dif_neg h]
    exact pad_apply_of_not_inside _ _ _ w v hp hu _ (2 : Fin 3) (by
      intro hin
      have e : (x.val - 0) / (0 + 1) < 63 := hin.2.2
      omega)

end Index

/-! ## The host prefix's arrays as composed terms -/

/-- The padding value: the integer `0` converted to a float. -/
abbrev zK : (⟨S_, .f32⟩ : BufTy).Contents (Elt Ideal) := sitofp (F := Ideal) .f32 (constantI S_ 32 0#32)

/-- It is the zero weight. -/
theorem zK_apply (i : S_.Idx) : zK i = zf := by
  show (((0#32 : BitVec 32).toInt : ℝ) : EReal) = Ideal.ofBits .f32 0x00000000#32
  rw [Ideal.ofBits_zero_f32]
  simp

/-- The vertical weights `[4, 63, 64]`, by the kernel's own host operations: the image cut into 64 × 64 patches of
    16 × 16, each patch's first 15 × 15 kept, the absolute differences of vertically neighbouring patches summed over
    the colours and the patch's entries. -/
def wVK (x0 : (⟨S4x3x1024x1024, .f32⟩ : BufTy).Contents (Elt Ideal)) : (⟨S4x63x64, .f32⟩ : BufTy).Contents (Elt Ideal) :=
  Host.reduceAdd (F := Ideal) (Host.absf (subf
    (extractStridedSlice S4x3x63x15x64x15 ![0, 0, 1, 0, 0, 0] (extractStridedSlice S4x3x64x15x64x15 ![0, 0, 0, 0, 0, 0] (shapeCast S4x3x64x16x64x16 x0 shapeCasts_S4x3x1024x1024_S4x3x64x16x64x16) slices_S4x3x64x16x64x16_S4x3x64x15x64x15_0_0_0_0_0_0) slices_S4x3x64x15x64x15_S4x3x63x15x64x15_0_0_1_0_0_0)
    (extractStridedSlice S4x3x63x15x64x15 ![0, 0, 0, 0, 0, 0] (extractStridedSlice S4x3x64x15x64x15 ![0, 0, 0, 0, 0, 0] (shapeCast S4x3x64x16x64x16 x0 shapeCasts_S4x3x1024x1024_S4x3x64x16x64x16) slices_S4x3x64x16x64x16_S4x3x64x15x64x15_0_0_0_0_0_0) slices_S4x3x64x15x64x15_S4x3x63x15x64x15_0_0_0_0_0_0)))
    (constant (F := Ideal) S_ .f32 0x00000000#32) reducesTo_S4x3x63x15x64x15_S4x63x64_d1_3_5 h_S_

/-- The horizontal weights `[4, 64, 63]`, likewise from horizontally neighbouring patches. -/
def wHK (x0 : (⟨S4x3x1024x1024, .f32⟩ : BufTy).Contents (Elt Ideal)) : (⟨S4x64x63, .f32⟩ : BufTy).Contents (Elt Ideal) :=
  Host.reduceAdd (F := Ideal) (Host.absf (subf
    (extractStridedSlice S4x3x64x15x63x15 ![0, 0, 0, 0, 1, 0] (extractStridedSlice S4x3x64x15x64x15 ![0, 0, 0, 0, 0, 0] (shapeCast S4x3x64x16x64x16 x0 shapeCasts_S4x3x1024x1024_S4x3x64x16x64x16) slices_S4x3x64x16x64x16_S4x3x64x15x64x15_0_0_0_0_0_0) slices_S4x3x64x15x64x15_S4x3x64x15x63x15_0_0_0_0_1_0)
    (extractStridedSlice S4x3x64x15x63x15 ![0, 0, 0, 0, 0, 0] (extractStridedSlice S4x3x64x15x64x15 ![0, 0, 0, 0, 0, 0] (shapeCast S4x3x64x16x64x16 x0 shapeCasts_S4x3x1024x1024_S4x3x64x16x64x16) slices_S4x3x64x16x64x16_S4x3x64x15x64x15_0_0_0_0_0_0) slices_S4x3x64x15x64x15_S4x3x64x15x63x15_0_0_0_0_0_0)))
    (constant (F := Ideal) S_ .f32 0x00000000#32) reducesTo_S4x3x64x15x63x15_S4x64x63_d1_3_5 h_S_

/-- They are the reference's weights: the same reshape, slices, difference, absolute value and sum over the colour and
    patch axes, from the same argument. -/
theorem wVK_eq (x0 : (⟨S4x3x1024x1024, .f32⟩ : BufTy).Contents (Elt Ideal)) :
    wVK x0 = Cert.ReferenceIdeal.Read.val_main_v6 (F := Ideal) x0 := rfl
theorem wHK_eq (x0 : (⟨S4x3x1024x1024, .f32⟩ : BufTy).Contents (Elt Ideal)) :
    wHK x0 = Cert.ReferenceIdeal.Read.val_main_v11 (F := Ideal) x0 := rfl

/-- The vertical weights with a row of the padding value below, laid flat. -/
def flatV (x0 : (⟨S4x3x1024x1024, .f32⟩ : BufTy).Contents (Elt Ideal)) : (⟨S4x4096, .f32⟩ : BufTy).Contents (Elt Ideal) :=
  shapeCast S4x4096 (pad S4x64x64 ![0, 0, 0] ![0, 1, 0] ![0, 0, 0] (wVK x0) zK pads_S4x63x64_S4x64x64_000_010_000 h_S_) shapeCasts_S4x64x64_S4x4096

/-- The horizontal weights with a column of the padding value on the right, laid flat. -/
def flatH (x0 : (⟨S4x3x1024x1024, .f32⟩ : BufTy).Contents (Elt Ideal)) : (⟨S4x4096, .f32⟩ : BufTy).Contents (Elt Ideal) :=
  shapeCast S4x4096 (pad S4x64x64 ![0, 0, 0] ![0, 0, 1] ![0, 0, 0] (wHK x0) zK pads_S4x64x63_S4x64x64_000_000_010 h_S_) shapeCasts_S4x64x64_S4x4096

/-- Read at node `n`, the flat padded vertical weights are the spec's: node `n = 64·y + x` below the last row
    (`n < 4032`, that is `y < 63`) reads weight `(y, x)`, which is entry `n` of the unpadded flat weights; a node of the
    last row reads zero. -/
theorem flatV_apply (x0 : (⟨S4x3x1024x1024, .f32⟩ : BufTy).Contents (Elt Ideal)) (b : Fin 4) (n : Fin 4096) :
    flatV x0 (ix2 b n) = padV zf (Cert.ReferenceIdeal.Read.val_main_v26 (F := Ideal) x0) (ix2 b n) := by
  show flatV x0 (ix2 b n)
    = if h : n.val < 4032 then Cert.ReferenceIdeal.Read.val_main_v26 (F := Ideal) x0 (ix2 b ⟨n.val, h⟩) else zf
  have hn : n.val < 4096 := n.isLt
  unfold flatV
  rw [flat_apply, padRow_apply]
  by_cases h : n.val < 4032
  · have h' : n.val / 64 < 63 := by omega
    rw [dif_pos h, dif_pos h', wVK_eq]
    exact (unflatV_apply (Cert.ReferenceIdeal.Read.val_main_v6 (F := Ideal) x0) _ b ⟨n.val / 64, h'⟩
      ⟨n.val % 64, by omega⟩ ⟨n.val, h⟩ (by show n.val = n.val / 64 * 64 + n.val % 64; omega)).symm
  · have h' : ¬ n.val / 64 < 63 := by omega
    rw [dif_neg h, dif_neg h', zK_apply]

/-- Read at node `n`, the flat padded horizontal weights are the spec's: node `n = 64·y + x` left of the last column
    (`x < 63`) reads weight `(y, x)`, which is entry `63·y + x` of the unpadded flat weights; a node of the last column
    reads zero. -/
theorem flatH_apply (x0 : (⟨S4x3x1024x1024, .f32⟩ : BufTy).Contents (Elt Ideal)) (b : Fin 4) (n : Fin 4096) :
    flatH x0 (ix2 b n) = padH zf (Cert.ReferenceIdeal.Read.val_main_v59 (F := Ideal) x0) (ix2 b n) := by
  have hn : n.val < 4096 := n.isLt
  show flatH x0 (ix2 b n)
    = if h : n.val % 64 < 63 then
        Cert.ReferenceIdeal.Read.val_main_v59 (F := Ideal) x0 (ix2 b ⟨n.val / 64 * 63 + n.val % 64, by omega⟩)
      else zf
  unfold flatH
  rw [flat_apply, padCol_apply]
  by_cases h : n.val % 64 < 63
  · rw [dif_pos h, dif_pos h, wHK_eq]
    exact (unflatH_apply (Cert.ReferenceIdeal.Read.val_main_v11 (F := Ideal) x0) _ b ⟨n.val / 64, by omega⟩
      ⟨n.val % 64, h⟩ ⟨n.val / 64 * 63 + n.val % 64, by omega⟩ rfl).symm
  · rw [dif_neg h, dif_neg h, zK_apply]

/-! ## The four inputs as composed terms: what the host operations leave in each array -/

section Arrays
open Idealize.ShloMosaic.StableHlo

/-- Input 0 is the flat padded vertical weights as a row. -/
theorem V_v16_eq (c : Dev nD) :
    (V m c main_v16 : S4x1x4096.Idx → Ideal .f32) = shapeCast S4x1x4096 (flatV (arg m c)) shapeCasts_S4x4096_S4x1x4096 := by
  dsimp only [V]
  simp only [hostOps0, hostOps0_1, hostOps0_2, hostOps0_3, hostOps0_4, List.flatten_cons, List.flatten_nil, List.append_nil,
    List.cons_append, List.nil_append]
  after_results
  rfl

/-- Input 1 is the flat padded vertical weights as a column. -/
theorem V_v17_eq (c : Dev nD) :
    (V m c main_v17 : S4x4096x1.Idx → Ideal .f32) = shapeCast S4x4096x1 (flatV (arg m c)) shapeCasts_S4x4096_S4x4096x1 := by
  dsimp only [V]
  simp only [hostOps0, hostOps0_1, hostOps0_2, hostOps0_3, hostOps0_4, List.flatten_cons, List.flatten_nil, List.append_nil,
    List.cons_append, List.nil_append]
  after_results
  rfl

/-- Input 2 is the flat padded horizontal weights as a column. -/
theorem V_v18_eq (c : Dev nD) :
    (V m c main_v18 : S4x4096x1.Idx → Ideal .f32) = shapeCast S4x4096x1 (flatH (arg m c)) shapeCasts_S4x4096_S4x4096x1 := by
  dsimp only [V]
  simp only [hostOps0, hostOps0_1, hostOps0_2, hostOps0_3, hostOps0_4, List.flatten_cons, List.flatten_nil, List.append_nil,
    List.cons_append, List.nil_append]
  after_results
  rfl

/-- Input 3 is the flat padded horizontal weights as a row. -/
theorem V_v19_eq (c : Dev nD) :
    (V m c main_v19 : S4x1x4096.Idx → Ideal .f32) = shapeCast S4x1x4096 (flatH (arg m c)) shapeCasts_S4x4096_S4x1x4096 := by
  dsimp only [V]
  simp only [hostOps0, hostOps0_1, hostOps0_2, hostOps0_3, hostOps0_4, List.flatten_cons, List.flatten_nil, List.append_nil,
    List.cons_append, List.nil_append]
  after_results
  rfl

end Arrays

/-! ## The four inputs read at an index -/

/-- Input 0, the vertical weights as a row. -/
theorem V_v16 (c : Dev nD) (b : Fin 4) (n : Fin 4096) :
    (V m c main_v16 : S4x1x4096.Idx → Ideal .f32) (ix3 b 0 n) = dvf m c (ix2 b n) := by
  rw [V_v16_eq, row_apply]
  exact flatV_apply (arg m c) b n

/-- Input 1, the vertical weights as a column. -/
theorem V_v17 (c : Dev nD) (b : Fin 4) (n : Fin 4096) :
    (V m c main_v17 : S4x4096x1.Idx → Ideal .f32) (ix3 b n 0) = dvf m c (ix2 b n) := by
  rw [V_v17_eq, col_apply]
  exact flatV_apply (arg m c) b n

/-- Input 2, the horizontal weights as a column. -/
theorem V_v18 (c : Dev nD) (b : Fin 4) (n : Fin 4096) :
    (V m c main_v18 : S4x4096x1.Idx → Ideal .f32) (ix3 b n 0) = dhf m c (ix2 b n) := by
  rw [V_v18_eq, col_apply]
  exact flatH_apply (arg m c) b n

/-- Input 3, the horizontal weights as a row. -/
theorem V_v19 (c : Dev nD) (b : Fin 4) (n : Fin 4096) :
    (V m c main_v19 : S4x1x4096.Idx → Ideal .f32) (ix3 b 0 n) = dhf m c (ix2 b n) := by
  rw [V_v19_eq, row_apply]
  exact flatH_apply (arg m c) b n

end Cert.KernelIdeal.AdjHost

end
-- ==== Proof.KernelValue.lean ====
/-
  The kernel's output array after the run is the banded matrix of the flat padded weights. Grid point
  `(b, ri, ci)` writes tile `(b, ri, ci)` of the `[4, 4096, 4096]` array, and reads tile `ci` of the row inputs
  and tile `ri` of the column inputs; its stored tile is the band function restricted to the tile, and the 64
  tiles cover the array.
-/
import proofs.«171796_j78520592106142_1_alg».proof.Proof.KernelIdealValue
import proofs.«171796_j78520592106142_1_alg».proof.Proof.KernelBlock
import proofs.«171796_j78520592106142_1_alg».proof.Proof.KernelHost
import proofs.«171796_j78520592106142_1_alg».proof.Proof.Spec
import Idealize.ShloMosaic.Lib.ValueIdx
import Idealize.ShloMosaic.Lib.Pipeline.Value

set_option maxRecDepth 16384

noncomputable section

namespace Cert.KernelIdeal.AdjValue

open Cert.KernelIdeal Cert.KernelIdeal.Gen Cert.KernelIdeal.GenP Cert.KernelIdeal.ValueP Idealize.ShloMosaic
  Idealize.ShloMosaic.TcCoe Idealize.ShloMosaic.ValueIdx Idealize.SL.Sem Cert.Adj Cert.KernelIdeal.AdjHost
open Idealize.ShloMosaic.Pipeline (Dat)

variable (m : (ℓ : Loc nD τ sig) → Buf (Elt Ideal) ℓ) (ρ : Dev nD → PrngReg)

/-- The windows' index maps at the grid's coordinates, decided over the 64 points: the row inputs' blocks sit at
    `(b, 0, ci)`, the column inputs' at `(b, ri, 0)`, the output's at `(b, ri, ci)`. -/
theorem idx_facts : ∀ t : Fin cfg0.N,
    (win0_0.index t (0 : Fin 3) = (grid0.coords t 0).val ∧ win0_0.index t (1 : Fin 3) = 0
      ∧ win0_0.index t (2 : Fin 3) = (grid0.coords t 2).val)
    ∧ (win0_1.index t (0 : Fin 3) = (grid0.coords t 0).val ∧ win0_1.index t (1 : Fin 3) = (grid0.coords t 1).val
      ∧ win0_1.index t (2 : Fin 3) = 0)
    ∧ (win0_2.index t (0 : Fin 3) = (grid0.coords t 0).val ∧ win0_2.index t (1 : Fin 3) = (grid0.coords t 1).val
      ∧ win0_2.index t (2 : Fin 3) = 0)
    ∧ (win0_3.index t (0 : Fin 3) = (grid0.coords t 0).val ∧ win0_3.index t (1 : Fin 3) = 0
      ∧ win0_3.index t (2 : Fin 3) = (grid0.coords t 2).val)
    ∧ (win0_4.index t (0 : Fin 3) = (grid0.coords t 0).val ∧ win0_4.index t (1 : Fin 3) = (grid0.coords t 1).val
      ∧ win0_4.index t (2 : Fin 3) = (grid0.coords t 2).val) :=
  (by decide +kernel : ∀ t : Fin grid0.N, _)

/-- Every block of the output array is some point's. -/
theorem idx_onto : ∀ (b ri ci : Fin 4), ∃ t : Fin cfg0.N, win0_4.index t = ![b.val, ri.val, ci.val] :=
  (by decide +kernel : ∀ (b ri ci : Fin 4), ∃ t : Fin grid0.N, win0_4.index t = ![b.val, ri.val, ci.val])

/-- The band function at an index given by its coordinates. -/
theorem band_at (dv dh : SF.Idx → Ideal .f32) (b : Fin 4) (r k : Fin 4096) :
    band zf dv dh (ix3 b r k)
      = if r.val = k.val + 64 then dv (ix2 b k)
        else if k.val = r.val + 64 then dv (ix2 b r)
        else if k.val = r.val + 1 then dh (ix2 b r)
        else if r.val = k.val + 1 then dh (ix2 b k)
        else zf := rfl

/-- Entry `(0, p, q)` of the output tile of point `(b, ri, ci)` is entry `(b, 1024·ri + p, 1024·ci + q)` of the array. -/
theorem emb_out (t : Fin cfg0.N) (p q : Fin 1024) (b : Fin 4) (r k : Fin 4096)
    (hb : b.val = (grid0.coords t 0).val) (hr : r.val = (grid0.coords t 1).val * 1024 + p.val)
    (hk : k.val = (grid0.coords t 2).val * 1024 + q.val) :
    (((cfg0.win 4).blk t).view.emb (ix3 0 p q) : S4x4096x4096.Idx) = ix3 b r k := by
  obtain ⟨-, -, -, -, e0, e1, e2⟩ := idx_facts t
  funext a; apply Fin.ext
  match a with
  | ⟨0, _⟩ => show win0_4.index t (0 : Fin 3) * 1 + 1 * 0 = b.val; omega
  | ⟨1, _⟩ => show win0_4.index t (1 : Fin 3) * 1024 + 1 * p.val = r.val; omega
  | ⟨2, _⟩ => show win0_4.index t (2 : Fin 3) * 1024 + 1 * q.val = k.val; omega

/-- The first row input's block at point `(b, ri, ci)`, at `q`: the vertical weight of node `1024·ci + q`. -/
theorem iblk0_at (c : Dev nD) (t : Fin cfg0.N) (q : Fin 1024) (b : Fin 4) (k : Fin 4096)
    (hb : b.val = (grid0.coords t 0).val) (hk : k.val = (grid0.coords t 2).val * 1024 + q.val) :
    (iblk m c 0 t : S1x1x1024.Idx → Ideal .f32) (ix3 0 0 q) = dvf m c (ix2 b k) := by
  obtain ⟨⟨e0, e1, e2⟩, -⟩ := idx_facts t
  rw [← V_v16 m c b k]
  unfold iblk
  rw [View.read_apply]
  show V m c main_v16 _ = V m c main_v16 _
  congr 1
  funext a; apply Fin.ext
  match a with
  | ⟨0, _⟩ => show win0_0.index t (0 : Fin 3) * 1 + 1 * 0 = b.val; omega
  | ⟨1, _⟩ => show win0_0.index t (1 : Fin 3) * 1 + 1 * 0 = 0; omega
  | ⟨2, _⟩ => show win0_0.index t (2 : Fin 3) * 1024 + 1 * q.val = k.val; omega

/-- The first column input's block at point `(b, ri, ci)`, at `p`: the vertical weight of node `1024·ri + p`. -/
theorem iblk1_at (c : Dev nD) (t : Fin cfg0.N) (p : Fin 1024) (b : Fin 4) (r : Fin 4096)
    (hb : b.val = (grid0.coords t 0).val) (hr : r.val = (grid0.coords t 1).val * 1024 + p.val) :
    (iblk m c 1 t : S1x1024x1.Idx → Ideal .f32) (ix3 0 p 0) = dvf m c (ix2 b r) := by
  obtain ⟨-, ⟨e0, e1, e2⟩, -⟩ := idx_facts t
  rw [← V_v17 m c b r]
  unfold iblk
  rw [View.read_apply]
  show V m c main_v17 _ = V m c main_v17 _
  congr 1
  funext a; apply Fin.ext
  match a with
  | ⟨0, _⟩ => show win0_1.index t (0 : Fin 3) * 1 + 1 * 0 = b.val; omega
  | ⟨1, _⟩ => show win0_1.index t (1 : Fin 3) * 1024 + 1 * p.val = r.val; omega
  | ⟨2, _⟩ => show win0_1.index t (2 : Fin 3) * 1 + 1 * 0 = 0; omega

/-- The second column input's block at point `(b, ri, ci)`, at `p`: the horizontal weight of node `1024·ri + p`. -/
theorem iblk2_at (c : Dev nD) (t : Fin cfg0.N) (p : Fin 1024) (b : Fin 4) (r : Fin 4096)
    (hb : b.val = (grid0.coords t 0).val) (hr : r.val = (grid0.coords t 1).val * 1024 + p.val) :
    (iblk m c 2 t : S1x1024x1.Idx → Ideal .f32) (ix3 0 p 0) = dhf m c (ix2 b r) := by
  obtain ⟨-, -, ⟨e0, e1, e2⟩, -⟩ := idx_facts t
  rw [← V_v18 m c b r]
  unfold iblk
  rw [View.read_apply]
  show V m c main_v18 _ = V m c main_v18 _
  congr 1
  funext a; apply Fin.ext
  match a with
  | ⟨0, _⟩ => show win0_2.index t (0 : Fin 3) * 1 + 1 * 0 = b.val; omega
  | ⟨1, _⟩ => show win0_2.index t (1 : Fin 3) * 1024 + 1 * p.val = r.val; omega
  | ⟨2, _⟩ => show win0_2.index t (2 : Fin 3) * 1 + 1 * 0 = 0; omega

/-- The second row input's block at point `(b, ri, ci)`, at `q`: the horizontal weight of node `1024·ci + q`. -/
theorem iblk3_at (c : Dev nD) (t : Fin cfg0.N) (q : Fin 1024) (b : Fin 4) (k : Fin 4096)
    (hb : b.val = (grid0.coords t 0).val) (hk : k.val = (grid0.coords t 2).val * 1024 + q.val) :
    (iblk m c 3 t : S1x1x1024.Idx → Ideal .f32) (ix3 0 0 q) = dhf m c (ix2 b k) := by
  obtain ⟨-, -, -, ⟨e0, e1, e2⟩, -⟩ := idx_facts t
  rw [← V_v19 m c b k]
  unfold iblk
  rw [View.read_apply]
  show V m c main_v19 _ = V m c main_v19 _
  congr 1
  funext a; apply Fin.ext
  match a with
  | ⟨0, _⟩ => show win0_3.index t (0 : Fin 3) * 1 + 1 * 0 = b.val; omega
  | ⟨1, _⟩ => show win0_3.index t (1 : Fin 3) * 1 + 1 * 0 = 0; omega
  | ⟨2, _⟩ => show win0_3.index t (2 : Fin 3) * 1024 + 1 * q.val = k.val; omega

/-- WHAT POINT `t` WRITES BACK is block `t` of the banded matrix: at entry `(0, p, q)` of the tile the body's four
    comparisons are the band's at `(r, k) = (1024·ri + p, 1024·ci + q)`, and each selected input is the flat weight
    the band reads there. -/
theorem flushed_eq (c : Dev nD) (t : Fin cfg0.N) :
    (dats m 0 c).flushed 4 t = ((cfg0.win 4).blk t).view.read (Elt Ideal) (band zf (dvf m c) (dhf m c)) := by
  rw [flushed4]
  funext j
  obtain ⟨a, p, q, rfl⟩ : ∃ (a : Fin 1) (p q : Fin 1024), j = ix3 a p q := ⟨j 0, j 1, j 2, eq_ix3 j⟩
  obtain rfl : a = 0 := Subsingleton.elim _ _
  have h0 : (grid0.coords t 0).val < 4 := (grid0.coords t 0).isLt
  have h1 : (grid0.coords t 1).val < 4 := (grid0.coords t 1).isLt
  have h2 : (grid0.coords t 2).val < 4 := (grid0.coords t 2).isLt
  have hp : p.val < 1024 := p.isLt
  have hq : q.val < 1024 := q.isLt
  obtain ⟨b, hb⟩ : ∃ b : Fin 4, b.val = (grid0.coords t 0).val := ⟨⟨_, h0⟩, rfl⟩
  obtain ⟨r, hr⟩ : ∃ r : Fin 4096, r.val = (grid0.coords t 1).val * 1024 + p.val := ⟨⟨_, by omega⟩, rfl⟩
  obtain ⟨k, hk⟩ : ∃ k : Fin 4096, k.val = (grid0.coords t 2).val * 1024 + q.val := ⟨⟨_, by omega⟩, rfl⟩
  rw [View.read_apply]
  show (out0_4 (F := Ideal) (grid0.coords t) (iblk m c 0 t) (iblk m c 1 t) (iblk m c 2 t) (iblk m c 3 t)
      : S1x1024x1024.Idx → Ideal .f32) (ix3 0 p q)
    = band zf (dvf m c) (dhf m c) (((cfg0.win 4).blk t).view.emb (ix3 0 p q))
  refine (AdjBlock.out_apply (grid0.coords t) (iblk m c 0 t) (iblk m c 1 t) (iblk m c 2 t) (iblk m c 3 t) p q).trans ?_
  rw [emb_out t p q b r k hb hr hk, band_at, iblk0_at m c t q b k hb hk, iblk1_at m c t p b r hb hr,
    iblk2_at m c t p b r hb hr, iblk3_at m c t q b k hb hk, hr, hk]

/-- An index of the array is in point `t`'s block iff each coordinate is in the block's range on its axis. -/
theorem mem_blk (t : Fin cfg0.N) (i : S4x4096x4096.Idx) :
    i ∈ ((cfg0.win 4).blk t).view.set ↔ ∀ a : Fin 3, win0_4.index t a * S1x1024x1024.size a ≤ (i a).val ∧ (i a).val < win0_4.index t a * S1x1024x1024.size a + S1x1024x1024.size a := by
  show i ∈ ((View.whole main_v20).slice (win0_4.rect t)).set ↔ _
  rw [View.set_slice_whole, Rect.mem_set_unit]
  exact Iff.rfl

/-- The 64 tiles cover the array: entry `(b, r, k)` lies in the tile of the point `(b, r / 1024, k / 1024)`. -/
theorem cover (i : S4x4096x4096.Idx) :
    ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 4096 := (i 2).isLt
  obtain ⟨t, ht⟩ := idx_onto ⟨(i 0).val, hi0⟩ ⟨(i 1).val / 1024, by omega⟩ ⟨(i 2).val / 1024, by omega⟩
  have q0 : win0_4.index t (0 : Fin 3) = (i 0).val := congrFun ht 0
  have q1 : win0_4.index t (1 : Fin 3) = (i 1).val / 1024 := congrFun ht 1
  have q2 : win0_4.index t (2 : Fin 3) = (i 2).val / 1024 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 1024 ≤ (i 2).val ∧ (i 2).val < win0_4.index t (2 : Fin 3) * 1024 + 1024; omega

/-- The output array after the run. -/
theorem final (c : Dev nD) :
    ((dats m 0 c).arrAt 4 cfg0.N : S4x4096x4096.Idx → Ideal .f32) = band zf (dvf m c) (dhf m c) :=
  (dats m 0 c).arrAt_eq_of_cover 4 (band zf (dvf m c) (dhf m c)) (fun t _ => flushed_eq m c t) cover

/-- The kernel's run with its result named: the banded matrix, the argument unchanged. -/
theorem run : θ_run defs (onTc (τ := τ) (main (F := Ideal))) ⟨m, fun _ => 0, ρ⟩ fun r => ∀ c : Dev nD,
      r.2.mem ((c : Thread nD τ).loc main_v20) = band zf (dvf m c) (dhf m c)
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.AdjValue

end
-- ==== Proof.LibGatherScatter.lean ====
/-
  The host's gather and accumulating scatter in the shapes array indexing `x[idx]` and the segment sum
  `x.at[idx].add(u)` lower to, READ AT AN INDEX at the ideal instance, for any sizes: one axis of the operand is
  indexed by a column of 32-bit words, the other axis (if any) is carried whole. The gather reads the operand at
  the word's signed value clamped into the axis; the scatter adds to an element every update whose word's signed
  value is exactly that element's coordinate (an update landing outside is dropped). Also the negative-index
  wrap (a negative word counts from the end) and the column broadcast that feed them, read at an index.
  Each lemma is stated for ANY dimension-number record of the given type whose fields are the listed ones.
-/
import Idealize.ShloMosaic.PureOps.Ideal
import Idealize.ShloMosaic.Lib.ValueIdx
import Idealize.ShloMosaic.Lib.StableHlo.Predicate
import Mathlib.Algebra.BigOperators.Group.Finset.Basic

set_option maxRecDepth 16384

noncomputable section

namespace Cert.LibGatherScatter

open Idealize.ShloMosaic Idealize.ShloMosaic.ValueIdx
open scoped BigOperators

/-! ## The clamp of a start index -/

/-- The signed value of a 32-bit word clamped into `[0, N - 1]`: a negative word gives `0`, one at or past `N`
    gives `N - 1`. -/
def clampIdx (N : Nat) (hN : 0 < N) (v : BitVec 32) : Fin N := ⟨min v.toInt.toNat (N - 1), by omega⟩

/-- A word whose signed value is already in `[0, N)` is clamped to that value. -/
theorem clampIdx_of_inRange {N : Nat} (hN : 0 < N) {v : BitVec 32} (h0 : 0 ≤ v.toInt) (h1 : v.toInt < N) :
    (clampIdx N hN v).val = v.toInt.toNat := by
  show min v.toInt.toNat (N - 1) = v.toInt.toNat
  omega

/-! ## The gather along the first axis, read at an index -/

/-- The gather of a rank-1 operand `[N]` at a column `[E, 1]` of start indices (the operand's one axis collapsed
    and start-indexed, no offset or batching axes, the index vector on axis 1): result element `e` is the operand
    at start index `e`'s signed value clamped into `[0, N - 1]`. -/
theorem gather1_apply {α : Type} {N E : Nat} (hN : 0 < N) (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ 32) (e : Fin E) :
    Host.gather d x idx (ix1 e) = x (ix1 (clampIdx N hN (idx (ix2 e 0)))) := by
  have h := StableHlo.Predicate.gather_take d hcoll hob hsim hivd x idx e hN
  have e1 : ∀ {n : Nat} (k : Fin n), (Shape.Idx.ofFin k : (⟨1, ![n]⟩ : Shape).Idx) = ix1 k := fun k => by
    funext a
    obtain rfl : a = 0 := Subsingleton.elim _ _
    exact Fin.ext rfl
  have e2 : StableHlo.Predicate.ixP e = ix2 e 0 := by
    funext a
    match a with
    | ⟨0, _⟩ => rfl
    | ⟨1, _⟩ => rfl
  rw [e1, e1] at h
  simp only [e2] at h
  exact h

/-- The gather of whole rows of a rank-2 operand `[N, C]` at a column `[E, 1]` of start indices (axis 0 collapsed
    and start-indexed, axis 1 the one offset axis, the index vector on axis 1): result element `(e, f)` is the
    operand at row "start index `e`'s signed value clamped into `[0, N - 1]`", column `f`. -/
theorem gather2_apply {α : Type} {N E C : Nat} (hN : 0 < N) (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ 32) (e : Fin E) (f : Fin C) :
    Host.gather d x idx (ix2 e f) = x (ix2 (clampIdx N hN (idx (ix2 e 0))) f) := by
  -- the slice is one row high, so the clamp's upper end is N - 1
  have hsl : d.sliceSizes 0 = 1 := d.slice_collapsed 0 (by rw [hcoll]; exact List.mem_singleton.mpr rfl)
  obtain ⟨od, cd, ob, sb, sim, iv, ss, wf⟩ := d
  simp only at hoff hcoll hob hsim hivd hsl
  subst hoff hcoll hob hsim hivd
  unfold Host.gather
  congr 1
  funext a
  apply Fin.ext
  match a with
  | ⟨0, _⟩ =>
    -- the row: the clamped start, no batching or offset coordinate
    show GatherDims.start _ _ idx 0 + GatherDims.batchCoord _ _ 0 + GatherDims.offCoord _ _ 0
      = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - ss 0) = _
    rw [hsl]
    congr 3
    congr 1
    funext b
    apply Fin.ext
    match b with
    | ⟨0, _⟩ => rfl
    | ⟨1, _⟩ => rfl
  | ⟨1, _⟩ =>
    -- the column: start 0 (the axis is not start-indexed), the offset coordinate the result's
    show GatherDims.start _ _ idx 1 + GatherDims.batchCoord _ _ 1 + GatherDims.offCoord _ _ 1 = f.val
    have h1 : (1 : Fin (⟨2, ![N, C]⟩ : Shape).rank) ∉ [(0 : Fin (⟨2, ![N, C]⟩ : Shape).rank)] :=
      (by decide : (1 : Fin 2) ∉ [(0 : Fin 2)])
    rw [GatherDims.batchCoord_eq_zero _ _ _ List.not_mem_nil]
    unfold GatherDims.start GatherDims.offCoord
    rw [dif_neg h1, dif_pos ((GatherDims.mem_sKept _ _).mpr ⟨h1, List.not_mem_nil⟩)]
    simp only [Nat.zero_add, Nat.add_zero]
    rfl

/-! ## The accumulating scatter along the first axis, read at an index -/

/-- An update lands at `i` exactly when, on every operand axis, its start plus its window coordinate is `i`'s
    coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h a
    split at h
    · rename_i hall
      have hfa := congrArg Fin.val (congrFun (Option.some.inj h) a)
      have h0 := (hall a).1
      simp only at hfa
      omega
    · exact absurd h (by simp)
  · intro h
    have hall : ∀ a, 0 ≤ d.start j idx a + (d.window j a : ℤ) ∧ d.start j idx a + (d.window j a : ℤ) < (s.size a : ℤ) := by
      intro a
      have h1 := h a
      have h2 := (i a).isLt
      constructor <;> omega
    rw [dif_pos hall]
    congr 1
    funext a
    apply Fin.ext
    show (d.start j idx a + (d.window j a : ℤ)).toNat = (i a).val
    have h1 := h a
    omega

/-! ### Rank 1: `[N]` at a column `[E, 1]` of scatter indices, updates `[E]` -/

section Rank1
variable {N E : Nat} (d : ScatterDims ⟨1, ![N]⟩ ⟨2, ![E, 1]⟩ ⟨1, ![E]⟩)
  (huw : d.updateWindowDims = []) (hiw : d.insertedWindowDims = [0])
  (hsd : d.scatterDimsToOperandDims = [0]) (hivd : d.indexVectorDim = 1)
include huw hiw hsd hivd

/-- Update `j`'s start on the operand's axis is the signed value of scatter index `j`. -/
theorem start1 {w : Nat} (idx : IVec ⟨2, ![E, 1]⟩ w) (j : (⟨1, ![E]⟩ : Shape).Idx) :
    d.start j idx 0 = (idx (ix2 (j 0) 0)).toInt := by
  obtain ⟨uw, iw, sd, iv, wf⟩ := d
  simp only at huw hiw hsd hivd
  subst huw hiw hsd hivd
  unfold ScatterDims.start
  rw [dif_pos (List.mem_singleton.mpr rfl)]
  congr 2
  funext b
  apply Fin.ext
  match b with
  | ⟨0, _⟩ => rfl
  | ⟨1, _⟩ => rfl

/-- The operand's axis is an inserted one: no window coordinate on it. -/
theorem window1 (j : (⟨1, ![E]⟩ : Shape).Idx) : d.window j 0 = 0 := by
  obtain ⟨uw, iw, sd, iv, wf⟩ := d
  simp only at huw hiw hsd hivd
  subst huw hiw hsd hivd
  unfold ScatterDims.window
  rw [dif_neg (by simp [ScatterDims.sKept, Shape.kept])]

/-- Update `j` lands at `i` exactly when scatter index `j`'s signed value is `i`'s coordinate. -/
theorem resultIdx1_eq_some_iff {w : Nat} (idx : IVec ⟨2, ![E, 1]⟩ w) (j : (⟨1, ![E]⟩ : Shape).Idx)
    (i : (⟨1, ![N]⟩ : Shape).Idx) :
    d.resultIdx? j idx = some i ↔ (idx (ix2 (j 0) 0)).toInt = ((i 0).val : ℤ) := by
  rw [resultIdx?_eq_some_iff]
  constructor
  · intro h
    have h0 := h 0
    rw [start1 d huw hiw hsd hivd, window1 d huw hiw hsd hivd] at h0
    simpa using h0
  · intro h a
    obtain rfl : a = 0 := Subsingleton.elim _ _
    rw [start1 d huw hiw hsd hivd, window1 d huw hiw hsd hivd]
    simpa using h

/-- THE SCATTER-ADD READ AT `i`: the operand's element plus the sum of the updates whose scatter index, read
    signed, is exactly `i` (an index below `0` or at or past `N` meets no `i`: that update is dropped). -/
theorem scatterAdd1_apply {φ : FTy}
    (x : FVec Ideal ⟨1, ![N]⟩ φ) (idx : IVec ⟨2, ![E, 1]⟩ 32) (upd : FVec Ideal ⟨1, ![E]⟩ φ) (i : Fin N) :
    Host.scatterAdd (F := Ideal) d x idx upd (ix1 i)
      = x (ix1 i) + ∑ e ∈ Finset.univ.filter (fun e : Fin E => (idx (ix2 e 0)).toInt = (i.val : ℤ)), upd (ix1 e) := by
  show x (ix1 i) + ∑ j ∈ Finset.univ.filter (fun j => d.resultIdx? j idx = some (ix1 i)), upd j = _
  congr 1
  refine Finset.sum_nbij' (fun j => j 0) ix1 ?_ ?_ ?_ ?_ ?_
  · intro j hj
    exact Finset.mem_filter.mpr ⟨Finset.mem_univ _,
      (resultIdx1_eq_some_iff d huw hiw hsd hivd idx j (ix1 i)).mp (Finset.mem_filter.mp hj).2⟩
  · intro e he
    exact Finset.mem_filter.mpr ⟨Finset.mem_univ _,
      (resultIdx1_eq_some_iff d huw hiw hsd hivd idx (ix1 e) (ix1 i)).mpr (Finset.mem_filter.mp he).2⟩
  · intro j _
    exact (eq_ix1 j).symm
  · intro e _
    rfl
  · intro j _
    exact congrArg upd (eq_ix1 j)

end Rank1

/-! ### Rank 2: whole rows of `[N, C]` at a column `[E, 1]` of scatter indices, updates `[E, C]` -/

section Rank2
variable {N E C : Nat} (d : ScatterDims ⟨2, ![N, C]⟩ ⟨2, ![E, 1]⟩ ⟨2, ![E, C]⟩)
  (huw : d.updateWindowDims = [1]) (hiw : d.insertedWindowDims = [0])
  (hsd : d.scatterDimsToOperandDims = [0]) (hivd : d.indexVectorDim = 1)
include huw hiw hsd hivd

/-- Update `j`'s start on the row axis is the signed value of scatter index `j 0`. -/
theorem start2_row {w : Nat} (idx : IVec ⟨2, ![E, 1]⟩ w) (j : (⟨2, ![E, C]⟩ : Shape).Idx) :
    d.start j idx 0 = (idx (ix2 (j 0) 0)).toInt := by
  obtain ⟨uw, iw, sd, iv, wf⟩ := d
  simp only at huw hiw hsd hivd
  subst huw hiw hsd hivd
  unfold ScatterDims.start
  rw [dif_pos (List.mem_singleton.mpr rfl)]
  congr 2
  funext b
  apply Fin.ext
  match b with
  | ⟨0, _⟩ => rfl
  | ⟨1, _⟩ => rfl

/-- The column axis is not scatter-indexed: its start is `0`. -/
theorem start2_col {w : Nat} (idx : IVec ⟨2, ![E, 1]⟩ w) (j : (⟨2, ![E, C]⟩ : Shape).Idx) :
    d.start j idx 1 = 0 := by
  obtain ⟨uw, iw, sd, iv, wf⟩ := d
  simp only at huw hiw hsd hivd
  subst huw hiw hsd hivd
  unfold ScatterDims.start
  rw [dif_neg (by decide : (1 : Fin 2) ∉ [(0 : Fin 2)])]

/-- The row axis is an inserted one: no window coordinate on it. -/
theorem window2_row (j : (⟨2, ![E, C]⟩ : Shape).Idx) : d.window j 0 = 0 := by
  obtain ⟨uw, iw, sd, iv, wf⟩ := d
  simp only at huw hiw hsd hivd
  subst huw hiw hsd hivd
  unfold ScatterDims.window
  rw [dif_neg (by simp [ScatterDims.sKept, Shape.kept])]

/-- The column axis carries the update's window coordinate: its column. -/
theorem window2_col (j : (⟨2, ![E, C]⟩ : Shape).Idx) : d.window j 1 = (j 1).val := by
  obtain ⟨uw, iw, sd, iv, wf⟩ := d
  simp only at huw hiw hsd hivd
  subst huw hiw hsd hivd
  unfold ScatterDims.window
  rw [dif_pos (by simp [ScatterDims.sKept, Shape.kept])]
  rfl

/-- Update `j` lands at `i` exactly when scatter index `j 0`'s signed value is `i`'s row and `j`'s column is `i`'s. -/
theorem resultIdx2_eq_some_iff {w : Nat} (idx : IVec ⟨2, ![E, 1]⟩ w) (j : (⟨2, ![E, C]⟩ : Shape).Idx)
    (i : (⟨2, ![N, C]⟩ : Shape).Idx) :
    d.resultIdx? j idx = some i ↔ (idx (ix2 (j 0) 0)).toInt = ((i 0).val : ℤ) ∧ (j 1).val = (i 1).val := by
  rw [resultIdx?_eq_some_iff]
  constructor
  · intro h
    have h0 := h 0
    have h1 := h 1
    rw [start2_row d huw hiw hsd hivd, window2_row d huw hiw hsd hivd] at h0
    rw [start2_col d huw hiw hsd hivd, window2_col d huw hiw hsd hivd] at h1
    refine ⟨by simpa using h0, ?_⟩
    have h1' : ((j 1).val : ℤ) = ((i 1).val : ℤ) := by simpa using h1
    exact_mod_cast h1'
  · rintro ⟨h0, h1⟩ a
    match a with
    | ⟨0, _⟩ =>
      show d.start j idx 0 + (d.window j 0 : ℤ) = ((i 0).val : ℤ)
      rw [start2_row d huw hiw hsd hivd, window2_row d huw hiw hsd hivd]
      simpa using h0
    | ⟨1, _⟩ =>
      show d.start j idx 1 + (d.window j 1 : ℤ) = ((i 1).val : ℤ)
      rw [start2_col d huw hiw hsd hivd, window2_col d huw hiw hsd hivd, h1]
      simp

/-- THE SCATTER-ADD READ AT `(i, f)`: the operand's element plus the sum, over the updates' rows whose scatter
    index, read signed, is exactly `i`, of that row's column `f` (an index below `0` or at or past `N` meets no
    `i`: that row is dropped). -/
theorem scatterAdd2_apply {φ : FTy}
    (x : FVec Ideal ⟨2, ![N, C]⟩ φ) (idx : IVec ⟨2, ![E, 1]⟩ 32) (upd : FVec Ideal ⟨2, ![E, C]⟩ φ) (i : Fin N) (f : Fin C) :
    Host.scatterAdd (F := Ideal) d x idx upd (ix2 i f)
      = x (ix2 i f) + ∑ e ∈ Finset.univ.filter (fun e : Fin E => (idx (ix2 e 0)).toInt = (i.val : ℤ)), upd (ix2 e f) := by
  show x (ix2 i f) + ∑ j ∈ Finset.univ.filter (fun j => d.resultIdx? j idx = some (ix2 i f)), upd j = _
  congr 1
  -- on the updates that land at (i, f) the column is f: such an update is (its row, f)
  have hcol : ∀ j : (⟨2, ![E, C]⟩ : Shape).Idx, d.resultIdx? j idx = some (ix2 i f) → j = ix2 (j 0) f := fun j hj => by
    have h1 := ((resultIdx2_eq_some_iff d huw hiw hsd hivd idx j (ix2 i f)).mp hj).2
    have hf : j 1 = f := Fin.ext h1
    rw [← hf]
    exact eq_ix2 j
  refine Finset.sum_nbij' (fun j => j 0) (fun e => ix2 e f) ?_ ?_ ?_ ?_ ?_
  · intro j hj
    exact Finset.mem_filter.mpr ⟨Finset.mem_univ _,
      ((resultIdx2_eq_some_iff d huw hiw hsd hivd idx j (ix2 i f)).mp (Finset.mem_filter.mp hj).2).1⟩
  · intro e he
    exact Finset.mem_filter.mpr ⟨Finset.mem_univ _,
      (resultIdx2_eq_some_iff d huw hiw hsd hivd idx (ix2 e f) (ix2 i f)).mpr ⟨(Finset.mem_filter.mp he).2, rfl⟩⟩
  · intro j hj
    exact (hcol j (Finset.mem_filter.mp hj).2).symm
  · intro e _
    rfl
  · intro j hj
    exact congrArg upd (hcol j (Finset.mem_filter.mp hj).2)

end Rank2

/-! ## The negative-index wrap and the column of indices, read at an index -/

/-- The negative-index wrap on one word: a negative index counts from the end, `n` the axis's extent. -/
def wrapW (n : BitVec 32) (v : BitVec 32) : BitVec 32 := if v.toInt < 0 then v + n else v

/-- A non-negative index is left alone. -/
theorem wrapW_of_nonneg {n v : BitVec 32} (h : 0 ≤ v.toInt) : wrapW n v = v := by
  unfold wrapW
  rw [if_neg (not_lt.mpr h)]

/-- The wrap as the select of "`v < 0`, signed" between `v + n` and `v`, the zero and `n` scalars broadcast to
    `v`'s shape, read at an index: the wrap of the word there. -/
theorem wrap_apply {s : Shape} (h0 hn : (⟨0, ![]⟩ : Shape).BroadcastsInDim s ![]) (n : BitVec 32) (v : IVec s 32)
    (i : s.Idx) :
    select (cmpi .slt v (broadcastInDim s ![] h0 (constantI ⟨0, ![]⟩ 32 0#32)))
      (addi v (broadcastInDim s ![] hn (constantI ⟨0, ![]⟩ 32 n))) v i = wrapW n (v i) := by
  show Scalar.select (IntOp.cmpi .slt (v i) 0#32) (IntOp.addi (v i) n) (v i) = wrapW n (v i)
  unfold wrapW
  by_cases hlt : (v i).toInt < 0
  · have hc : IntOp.cmpi .slt (v i) 0#32 = 1#1 := by
      simp [IntOp.cmpi, BitVec.slt, hlt]
    rw [hc, select_one, if_pos hlt]
    rfl
  · have hc : IntOp.cmpi .slt (v i) 0#32 = 0#1 := by
      simp [IntOp.cmpi, BitVec.slt, hlt]
    rw [hc, select_zero, if_neg hlt]

/-- A vector `[E]` laid out as the column `[E, 1]` reads, at `(e, 0)`, the vector at `e`. -/
theorem bcast_col_apply {α : Type} {E : Nat} (h : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] h v (ix2 e z) = v (ix1 e) := by
  unfold broadcastInDim
  congr 1
  funext a
  obtain rfl : a = 0 := Subsingleton.elim _ _
  apply Fin.ext
  split
  · rename_i h1
    have hE : E = 1 := h1
    have he := e.isLt
    show 0 = e.val
    omega
  · rfl

end Cert.LibGatherScatter

end
-- ==== Proof.LibScatterSet.lean ====
/-
  The host's overwriting scatter `x.at[:, i, j].set(u)` READ AT AN INDEX, for any sizes and any element type:
  the operand is `[B, N, M]`, the scatter indices a table `[E, 2]` of 32-bit words (row `k` holds the pair
  `(i_k, j_k)`), the updates `[B, E]`; axis 0 of the operand is carried whole (the update's window axis), axes 1
  and 2 are the scattered ones. Update `(b, k)` lands at `(b, i_k, j_k)` (the words read signed; a pair outside
  the operand is dropped). When exactly one update lands at an index the result there is that update, and where
  none lands it is the operand's element. The fold over the updates is first read for any step function.
-/
import Idealize.ShloMosaic.PureOps.Ideal
import Idealize.ShloMosaic.Lib.ValueIdx
import proofs.«171796_j78520592106142_1_alg».proof.Proof.LibGatherScatter

set_option maxRecDepth 16384

noncomputable section

namespace Cert.LibScatterSet

open Idealize.ShloMosaic Idealize.ShloMosaic.ValueIdx

/-! ## A left fold of pointwise overwrites, read at one index -/

/-- If no step of the list changes the value at `i`, the fold leaves the start's value there. -/
theorem foldl_miss {κ ι α : Type} (stp : (ι → α) → κ → ι → α) (l : List κ) (x : ι → α) (i : ι)
    (h : ∀ n ∈ l, ∀ r, stp r n i = r i) : l.foldl stp x i = x i := by
  induction l generalizing x with
  | nil => rfl
  | cons b t ih =>
    rw [List.foldl_cons, ih (stp x b) (fun n hn => h n (List.mem_cons_of_mem _ hn))]
    exact h b List.mem_cons_self x

/-- If exactly one step `n0` of a duplicate-free list writes at `i`, and it writes `a` whatever was there, the
    fold ends with `a` at `i`. -/
theorem foldl_hit {κ ι α : Type} (stp : (ι → α) → κ → ι → α) (l : List κ) (hl : l.Nodup) (x : ι → α) (i : ι)
    (n0 : κ) (hn0 : n0 ∈ l) (a : α) (h0 : ∀ r, stp r n0 i = a)
    (h : ∀ n ∈ l, n ≠ n0 → ∀ r, stp r n i = r i) : l.foldl stp x i = a := by
  induction l generalizing x with
  | nil => exact absurd hn0 List.not_mem_nil
  | cons b t ih =>
    rw [List.foldl_cons]
    have hnd := List.nodup_cons.mp hl
    by_cases hb : b = n0
    · subst hb
      rw [foldl_miss stp t (stp x b) i (fun n hn r => h n (List.mem_cons_of_mem _ hn)
        (fun e => hnd.1 (e ▸ hn)) r)]
      exact h0 x
    · have hn0t : n0 ∈ t := by
        rcases List.mem_cons.mp hn0 with e | e
        · exact absurd e.symm hb
        · exact e
      exact ih hnd.2 (stp x b) hn0t (fun n hn => h n (List.mem_cons_of_mem _ hn))

/-! ## The overwriting scatter, any dimension numbers -/

section Any
variable {s si u : Shape} (d : ScatterDims s si u) {w : Nat} {α : Type}

/-- Where no update lands, the overwriting scatter leaves the operand's element. -/
theorem scatter_set_miss (x : s.Idx → α) (idx : IVec si w) (upd : u.Idx → α) (i : s.Idx)
    (h : ∀ j, d.resultIdx? j idx ≠ some i) :
    Host.scatter d (fun _ b => b) x idx upd i = x i := by
  unfold Host.scatter
  refine foldl_miss _ _ x i (fun n _ r => ?_)
  have hn := h (u.rowMajor.symm n)
  cases hg : d.resultIdx? (u.rowMajor.symm n) idx with
  | none => rfl
  | some i0 =>
    show (if i = i0 then _ else r i) = r i
    rw [if_neg (fun e => hn (by rw [hg, e]))]

/-- Where exactly one update lands, the overwriting scatter holds that update. -/
theorem scatter_set_hit (x : s.Idx → α) (idx : IVec si w) (upd : u.Idx → α) (i : s.Idx) (j0 : u.Idx)
    (h0 : d.resultIdx? j0 idx = some i) (huniq : ∀ j, d.resultIdx? j idx = some i → j = j0) :
    Host.scatter d (fun _ b => b) x idx upd i = upd j0 := by
  unfold Host.scatter
  refine foldl_hit _ _ (List.nodup_finRange _) x i (u.rowMajor j0) (List.mem_finRange _) (upd j0) (fun r => ?_)
    (fun n _ hne r => ?_)
  · show (match d.resultIdx? (u.rowMajor.symm (u.rowMajor j0)) idx with
      | some i0 => fun i' => if i' = i0 then upd (u.rowMajor.symm (u.rowMajor j0)) else r i'
      | none => r) i = upd j0
    rw [Equiv.symm_apply_apply, h0]
    show (if i = i then upd j0 else r i) = upd j0
    rw [if_pos rfl]
  · have hn : d.resultIdx? (u.rowMajor.symm n) idx ≠ some i := fun e =>
      hne (by rw [← huniq _ e, Equiv.apply_symm_apply])
    cases hg : d.resultIdx? (u.rowMajor.symm n) idx with
    | none => rfl
    | some i0 =>
      show (if i = i0 then _ else r i) = r i
      rw [if_neg (fun e => hn (by rw [hg, e]))]

end Any

/-! ## Operand `[B, N, M]`, index pairs `[E, 2]`, updates `[B, E]` -/

section Pair
variable {B N M E : Nat} (d : ScatterDims ⟨3, ![B, N, M]⟩ ⟨2, ![E, 2]⟩ ⟨2, ![B, E]⟩)
  (huw : d.updateWindowDims = [0]) (hiw : d.insertedWindowDims = [1, 2])
  (hsd : d.scatterDimsToOperandDims = [1, 2]) (hivd : d.indexVectorDim = 1)
include huw hiw hsd hivd

/-- Axis 0 is not scatter-indexed: its start is `0`. -/
theorem start_batch {w : Nat} (idx : IVec ⟨2, ![E, 2]⟩ w) (j : (⟨2, ![B, E]⟩ : Shape).Idx) :
    d.start j idx 0 = 0 := by
  obtain ⟨uw, iw, sd, iv, wf⟩ := d
  simp only at huw hiw hsd hivd
  subst huw hiw hsd hivd
  unfold ScatterDims.start
  rw [dif_neg (by decide : (0 : Fin 3) ∉ [(1 : Fin 3), 2])]

/-- Update `(b, k)`'s start on axis 1 is the signed value of the first word of pair `k`. -/
theorem start_row {w : Nat} (idx : IVec ⟨2, ![E, 2]⟩ w) (j : (⟨2, ![B, E]⟩ : Shape).Idx) :
    d.start j idx 1 = (idx (ix2 (j 1) 0)).toInt := by
  obtain ⟨uw, iw, sd, iv, wf⟩ := d
  simp only at huw hiw hsd hivd
  subst huw hiw hsd hivd
  unfold ScatterDims.start
  rw [dif_pos (by decide : (1 : Fin 3) ∈ [(1 : Fin 3), 2])]
  congr 2
  funext b
  apply Fin.ext
  match b with
  | ⟨0, _⟩ => rfl
  | ⟨1, _⟩ => rfl

/-- Update `(b, k)`'s start on axis 2 is the signed value of the second word of pair `k`. -/
theorem start_col {w : Nat} (idx : IVec ⟨2, ![E, 2]⟩ w) (j : (⟨2, ![B, E]⟩ : Shape).Idx) :
    d.start j idx 2 = (idx (ix2 (j 1) 1)).toInt := by
  obtain ⟨uw, iw, sd, iv, wf⟩ := d
  simp only at huw hiw hsd hivd
  subst huw hiw hsd hivd
  unfold ScatterDims.start
  rw [dif_pos (by decide : (2 : Fin 3) ∈ [(1 : Fin 3), 2])]
  congr 2
  funext b
  apply Fin.ext
  match b with
  | ⟨0, _⟩ => rfl
  | ⟨1, _⟩ => rfl

/-- Axis 0 carries the update's window coordinate: its batch. -/
theorem window_batch (j : (⟨2, ![B, E]⟩ : Shape).Idx) : d.window j 0 = (j 0).val := by
  obtain ⟨uw, iw, sd, iv, wf⟩ := d
  simp only at huw hiw hsd hivd
  subst huw hiw hsd hivd
  unfold ScatterDims.window
  rw [dif_pos (by simp [ScatterDims.sKept, Shape.kept])]
  rfl

/-- Axes 1 and 2 are inserted ones: no window coordinate on them. -/
theorem window_row (j : (⟨2, ![B, E]⟩ : Shape).Idx) : d.window j 1 = 0 := by
  obtain ⟨uw, iw, sd, iv, wf⟩ := d
  simp only at huw hiw hsd hivd
  subst huw hiw hsd hivd
  unfold ScatterDims.window
  rw [dif_neg (by simp [ScatterDims.sKept, Shape.kept])]

theorem window_col (j : (⟨2, ![B, E]⟩ : Shape).Idx) : d.window j 2 = 0 := by
  obtain ⟨uw, iw, sd, iv, wf⟩ := d
  simp only at huw hiw hsd hivd
  subst huw hiw hsd hivd
  unfold ScatterDims.window
  rw [dif_neg (by simp [ScatterDims.sKept, Shape.kept])]

/-- Update `(b, k)` lands at `(b', r, c)` exactly when `b = b'` and pair `k`, read signed, is `(r, c)`. -/
theorem resultIdx_eq_some_iff {w : Nat} (idx : IVec ⟨2, ![E, 2]⟩ w) (j : (⟨2, ![B, E]⟩ : Shape).Idx)
    (i : (⟨3, ![B, N, M]⟩ : Shape).Idx) :
    d.resultIdx? j idx = some i ↔
      (j 0).val = (i 0).val ∧ (idx (ix2 (j 1) 0)).toInt = ((i 1).val : ℤ) ∧ (idx (ix2 (j 1) 1)).toInt = ((i 2).val : ℤ) := by
  rw [Cert.LibGatherScatter.resultIdx?_eq_some_iff]
  constructor
  · intro h
    have h0 := h 0
    have h1 := h 1
    have h2 := h 2
    rw [start_batch d huw hiw hsd hivd, window_batch d huw hiw hsd hivd] at h0
    rw [start_row d huw hiw hsd hivd, window_row d huw hiw hsd hivd] at h1
    rw [start_col d huw hiw hsd hivd, window_col d huw hiw hsd hivd] at h2
    refine ⟨by omega, by simpa using h1, by simpa using h2⟩
  · rintro ⟨h0, h1, h2⟩ a
    match a with
    | ⟨0, _⟩ =>
      show d.start j idx 0 + (d.window j 0 : ℤ) = ((i 0).val : ℤ)
      rw [start_batch d huw hiw hsd hivd, window_batch d huw hiw hsd hivd]; omega
    | ⟨1, _⟩ =>
      show d.start j idx 1 + (d.window j 1 : ℤ) = ((i 1).val : ℤ)
      rw [start_row d huw hiw hsd hivd, window_row d huw hiw hsd hivd]; simpa using h1
    | ⟨2, _⟩ =>
      show d.start j idx 2 + (d.window j 2 : ℤ) = ((i 2).val : ℤ)
      rw [start_col d huw hiw hsd hivd, window_col d huw hiw hsd hivd]; simpa using h2

/-- THE OVERWRITING SCATTER READ AT `(b, r, c)` WHERE A PAIR NAMES IT: if pair `k` is `(r, c)` and no other pair
    is, the result there is update `(b, k)`. -/
theorem scatterSet_hit {w : Nat} {α : Type} (x : (⟨3, ![B, N, M]⟩ : Shape).Idx → α) (idx : IVec ⟨2, ![E, 2]⟩ w)
    (upd : (⟨2, ![B, E]⟩ : Shape).Idx → α) (b : Fin B) (r : Fin N) (c : Fin M) (k : Fin E)
    (hr : (idx (ix2 k 0)).toInt = (r.val : ℤ)) (hc : (idx (ix2 k 1)).toInt = (c.val : ℤ))
    (huniq : ∀ k' : Fin E, (idx (ix2 k' 0)).toInt = (r.val : ℤ) → (idx (ix2 k' 1)).toInt = (c.val : ℤ) → k' = k) :
    Host.scatter d (fun _ b => b) x idx upd (ix3 b r c) = upd (ix2 b k) := by
  refine scatter_set_hit d x idx upd (ix3 b r c) (ix2 b k)
    ((resultIdx_eq_some_iff d huw hiw hsd hivd idx _ _).mpr ⟨rfl, hr, hc⟩) (fun j hj => ?_)
  obtain ⟨h0, h1, h2⟩ := (resultIdx_eq_some_iff d huw hiw hsd hivd idx j (ix3 b r c)).mp hj
  have hk : j 1 = k := huniq (j 1) h1 h2
  have e0 : j 0 = b := Fin.ext h0
  rw [eq_ix2 j, e0, hk]
  rfl

/-- THE OVERWRITING SCATTER READ AT `(b, r, c)` WHERE NO PAIR NAMES IT: the operand's element. -/
theorem scatterSet_miss {w : Nat} {α : Type} (x : (⟨3, ![B, N, M]⟩ : Shape).Idx → α) (idx : IVec ⟨2, ![E, 2]⟩ w)
    (upd : (⟨2, ![B, E]⟩ : Shape).Idx → α) (b : Fin B) (r : Fin N) (c : Fin M)
    (hno : ∀ k : Fin E, ¬((idx (ix2 k 0)).toInt = (r.val : ℤ) ∧ (idx (ix2 k 1)).toInt = (c.val : ℤ))) :
    Host.scatter d (fun _ b => b) x idx upd (ix3 b r c) = x (ix3 b r c) := by
  refine scatter_set_miss d x idx upd (ix3 b r c) (fun j hj => ?_)
  obtain ⟨h0, h1, h2⟩ := (resultIdx_eq_some_iff d huw hiw hsd hivd idx j (ix3 b r c)).mp hj
  exact hno (j 1) ⟨h1, h2⟩

end Pair

end Cert.LibScatterSet

end
-- ==== Proof.RefTables.lean ====
/-
  The four index tables of the reference's scatters, read at a row. With `node (y, x) = 64·y + x` on the 64 × 64
  grid: rows 1… of the node table laid flat give `k + 64` at position `k`, rows …62 give `k`; columns …62 laid
  flat give `64·(k / 63) + k % 63` at position `k`, columns 1… one more. Every word is non-negative, so the
  negative-index wrap leaves it alone; a table pairs two of these columns.
-/
import proofs.«171796_j78520592106142_1_alg».proof.Proof.Gen.ReferenceIdeal.Read
import proofs.«171796_j78520592106142_1_alg».proof.Proof.LibGatherScatter
import Idealize.ShloMosaic.Lib.ValueIdx
import Idealize.ShloMosaic.Lib.Pipeline.Value

set_option maxRecDepth 16384

noncomputable section

namespace Cert.ReferenceIdeal.Tables

open Cert.ReferenceIdeal Cert.ReferenceIdeal.Read Idealize.ShloMosaic Idealize.ShloMosaic.ValueIdx

/-! ## Words below 2³¹ -/

/-- A natural number below 2³¹, as a 32-bit word read signed, is itself. -/
theorem toInt_ofNat_small (n : Nat) (h : n < 2147483648) : (BitVec.ofNat 32 n).toInt = (n : ℤ) := by
  have hn : (BitVec.ofNat 32 n).toNat = n := by rw [BitVec.toNat_ofNat]; omega
  rw [BitVec.toInt_eq_toNat_of_lt (by rw [hn]; omega), hn]

/-- The negative-index wrap on one word, as the reference spells it (the select of "below zero, signed" between
    the word plus the extent and the word): a word that is non-negative when read signed is left alone. -/
theorem wrap_word (v : BitVec 32) (h : 0 ≤ v.toInt) :
    Scalar.select (IntOp.cmpi .slt v 0#32) (IntOp.addi v 4096#32) v = v := by
  have hlt : ¬ v.toInt < 0 := not_lt.mpr h
  have hc : IntOp.cmpi .slt v 0#32 = 0#1 := by
    simp [IntOp.cmpi, BitVec.slt, hlt]
  rw [hc, select_zero]

/-! ## The node table and its four flattened windows -/

/-- The node table: entry `(i, j)` is the word `64·i + j`. -/
theorem v20_apply (i j : Fin 64) :
    (val_main_v20 (F := Ideal) (ix2 i j) : BitVec 32) = BitVec.ofNat 32 (i.val * 64 + j.val) := by
  rw [val_main_v20_apply, val_main_v18_apply, val_main_v19_apply, val_main_v15_apply, val_main_v13_apply,
    val_main_v14_apply, val_main_v17_apply, val_main_v12_apply, val_main_v16_apply, val_main_c_apply]
  show IntOp.addi (IntOp.muli (BitVec.ofNat 32 i.val) 64#32) (BitVec.ofNat 32 j.val) = _
  have hi := i.isLt
  have hj := j.isLt
  apply BitVec.eq_of_toNat_eq
  simp only [IntOp.addi, IntOp.muli, BitVec.toNat_add, BitVec.toNat_mul, BitVec.toNat_ofNat]
  omega

/-- Rows 1… laid flat: position `k` holds `k + 64`. -/
theorem v23_apply (k : Fin 4032) :
    (val_main_v23 (F := Ideal) (ix1 k) : BitVec 32) = BitVec.ofNat 32 (k.val + 64) := by
  have hk := k.isLt
  rw [val_main_v23_apply, val_main_v22_apply]
  have e : idx_main_v22 (idx_main_v23 (ix1 k))
      = ix2 (⟨1 + k.val / 64, by omega⟩ : Fin 64) (⟨k.val % 64, by omega⟩ : Fin 64) := by
    funext a
    match a with
    | ⟨0, _⟩ => rfl
    | ⟨1, _⟩ => rfl
  rw [e, v20_apply]
  show BitVec.ofNat 32 ((1 + k.val / 64) * 64 + k.val % 64) = _
  congr 1
  omega

/-- Rows …62 laid flat: position `k` holds `k`. -/
theorem v25_apply (k : Fin 4032) :
    (val_main_v25 (F := Ideal) (ix1 k) : BitVec 32) = BitVec.ofNat 32 k.val := by
  have hk := k.isLt
  rw [val_main_v25_apply, val_main_v24_apply]
  have e : idx_main_v24 (idx_main_v25 (ix1 k))
      = ix2 (⟨k.val / 64, by omega⟩ : Fin 64) (⟨k.val % 64, by omega⟩ : Fin 64) := by
    funext a
    match a with
    | ⟨0, _⟩ => rfl
    | ⟨1, _⟩ => rfl
  rw [e, v20_apply]
  show BitVec.ofNat 32 (k.val / 64 * 64 + k.val % 64) = _
  congr 1
  omega

/-- Columns …62 laid flat: position `k` holds `64·(k / 63) + k % 63`. -/
theorem v56_apply (k : Fin 4032) :
    (val_main_v56 (F := Ideal) (ix1 k) : BitVec 32) = BitVec.ofNat 32 (k.val / 63 * 64 + k.val % 63) := by
  have hk := k.isLt
  rw [val_main_v56_apply, val_main_v55_apply]
  have e : idx_main_v55 (idx_main_v56 (ix1 k))
      = ix2 (⟨k.val / 63, by omega⟩ : Fin 64) (⟨k.val % 63, by omega⟩ : Fin 64) := by
    funext a
    match a with
    | ⟨0, _⟩ => rfl
    | ⟨1, _⟩ => rfl
  rw [e, v20_apply]

/-- Columns 1… laid flat: position `k` holds `64·(k / 63) + k % 63 + 1`. -/
theorem v58_apply (k : Fin 4032) :
    (val_main_v58 (F := Ideal) (ix1 k) : BitVec 32) = BitVec.ofNat 32 (k.val / 63 * 64 + k.val % 63 + 1) := by
  have hk := k.isLt
  rw [val_main_v58_apply, val_main_v57_apply]
  have e : idx_main_v57 (idx_main_v58 (ix1 k))
      = ix2 (⟨k.val / 63, by omega⟩ : Fin 64) (⟨1 + k.val % 63, by omega⟩ : Fin 64) := by
    funext a
    match a with
    | ⟨0, _⟩ => rfl
    | ⟨1, _⟩ => rfl
  rw [e, v20_apply]
  show BitVec.ofNat 32 (k.val / 63 * 64 + (1 + k.val % 63)) = _
  congr 1
  omega

/-! ## Signed values of the four windows: all below 4096 -/

theorem v23_toInt (k : Fin 4032) : (val_main_v23 (F := Ideal) (ix1 k) : BitVec 32).toInt = ((k.val + 64 : ℕ) : ℤ) := by
  have hk := k.isLt
  rw [v23_apply, toInt_ofNat_small _ (by omega)]

theorem v25_toInt (k : Fin 4032) : (val_main_v25 (F := Ideal) (ix1 k) : BitVec 32).toInt = ((k.val : ℕ) : ℤ) := by
  have hk := k.isLt
  rw [v25_apply, toInt_ofNat_small _ (by omega)]

theorem v56_toInt (k : Fin 4032) :
    (val_main_v56 (F := Ideal) (ix1 k) : BitVec 32).toInt = ((k.val / 63 * 64 + k.val % 63 : ℕ) : ℤ) := by
  have hk := k.isLt
  rw [v56_apply, toInt_ofNat_small _ (by omega)]

theorem v58_toInt (k : Fin 4032) :
    (val_main_v58 (F := Ideal) (ix1 k) : BitVec 32).toInt = ((k.val / 63 * 64 + k.val % 63 + 1 : ℕ) : ℤ) := by
  have hk := k.isLt
  rw [v58_apply, toInt_ofNat_small _ (by omega)]

/-! ## The eight wrapped columns: the wrap leaves each word alone -/

theorem v31_apply (k : Fin 4032) :
    (val_main_v31 (F := Ideal) (ix1 k) : BitVec 32) = val_main_v23 (F := Ideal) (ix1 k) := by
  rw [val_main_v31_apply, val_main_v28_apply, val_main_v30_apply, val_main_v27_apply, val_main_v29_apply,
    val_main_c_2_apply, val_main_c_3_apply]
  exact wrap_word _ (by rw [v23_toInt]; exact Int.natCast_nonneg _)

theorem v36_apply (k : Fin 4032) :
    (val_main_v36 (F := Ideal) (ix1 k) : BitVec 32) = val_main_v25 (F := Ideal) (ix1 k) := by
  rw [val_main_v36_apply, val_main_v33_apply, val_main_v35_apply, val_main_v32_apply, val_main_v34_apply,
    val_main_c_4_apply, val_main_c_5_apply]
  exact wrap_word _ (by rw [v25_toInt]; exact Int.natCast_nonneg _)

theorem v45_apply (k : Fin 4032) :
    (val_main_v45 (F := Ideal) (ix1 k) : BitVec 32) = val_main_v25 (F := Ideal) (ix1 k) := by
  rw [val_main_v45_apply, val_main_v42_apply, val_main_v44_apply, val_main_v41_apply, val_main_v43_apply,
    val_main_c_6_apply, val_main_c_7_apply]
  exact wrap_word _ (by rw [v25_toInt]; exact Int.natCast_nonneg _)

theorem v50_apply (k : Fin 4032) :
    (val_main_v50 (F := Ideal) (ix1 k) : BitVec 32) = val_main_v23 (F := Ideal) (ix1 k) := by
  rw [val_main_v50_apply, val_main_v47_apply, val_main_v49_apply, val_main_v46_apply, val_main_v48_apply,
    val_main_c_8_apply, val_main_c_9_apply]
  exact wrap_word _ (by rw [v23_toInt]; exact Int.natCast_nonneg _)

theorem v64_apply (k : Fin 4032) :
    (val_main_v64 (F := Ideal) (ix1 k) : BitVec 32) = val_main_v56 (F := Ideal) (ix1 k) := by
  rw [val_main_v64_apply, val_main_v61_apply, val_main_v63_apply, val_main_v60_apply, val_main_v62_apply,
    val_main_c_10_apply, val_main_c_11_apply]
  exact wrap_word _ (by rw [v56_toInt]; exact Int.natCast_nonneg _)

theorem v69_apply (k : Fin 4032) :
    (val_main_v69 (F := Ideal) (ix1 k) : BitVec 32) = val_main_v58 (F := Ideal) (ix1 k) := by
  rw [val_main_v69_apply, val_main_v66_apply, val_main_v68_apply, val_main_v65_apply, val_main_v67_apply,
    val_main_c_12_apply, val_main_c_13_apply]
  exact wrap_word _ (by rw [v58_toInt]; exact Int.natCast_nonneg _)

theorem v78_apply (k : Fin 4032) :
    (val_main_v78 (F := Ideal) (ix1 k) : BitVec 32) = val_main_v58 (F := Ideal) (ix1 k) := by
  rw [val_main_v78_apply, val_main_v75_apply, val_main_v77_apply, val_main_v74_apply, val_main_v76_apply,
    val_main_c_14_apply, val_main_c_15_apply]
  exact wrap_word _ (by rw [v58_toInt]; exact Int.natCast_nonneg _)

theorem v83_apply (k : Fin 4032) :
    (val_main_v83 (F := Ideal) (ix1 k) : BitVec 32) = val_main_v56 (F := Ideal) (ix1 k) := by
  rw [val_main_v83_apply, val_main_v80_apply, val_main_v82_apply, val_main_v79_apply, val_main_v81_apply,
    val_main_c_16_apply, val_main_c_17_apply]
  exact wrap_word _ (by rw [v56_toInt]; exact Int.natCast_nonneg _)

/-! ## A column `[4032, 1]` read at `(k, 0)`, and a pair of columns joined side by side -/

/-- The two-column table at `(k, 0)` is the first column at `(k, 0)`. -/
theorem pair_left {α : Type} (x₁ x₂ : S4032x1.Idx → α) (h : Shape.Concatenates [S4032x1, S4032x1] S4032x2 1)
    (k : Fin 4032) :
    concatenate S4032x2 1 [⟨S4032x1, x₁⟩, ⟨S4032x1, x₂⟩] h (ix2 k 0) = x₁ (ix2 k 0) :=
  concatenate_pair_apply_left 1 x₁ x₂ h (ix2 k 0) rfl (ix2 k 0) (fun b => match b with
    | ⟨0, _⟩ => rfl
    | ⟨1, _⟩ => rfl)

/-- The two-column table at `(k, 1)` is the second column at `(k, 0)`. -/
theorem pair_right {α : Type} (x₁ x₂ : S4032x1.Idx → α) (h : Shape.Concatenates [S4032x1, S4032x1] S4032x2 1)
    (k : Fin 4032) :
    concatenate S4032x2 1 [⟨S4032x1, x₁⟩, ⟨S4032x1, x₂⟩] h (ix2 k 1) = x₂ (ix2 k 0) :=
  concatenate_pair_apply_right 1 x₁ x₂ h (ix2 k 1) rfl rfl (ix2 k 0) (fun b hb => match b, hb with
    | ⟨0, _⟩, _ => rfl
    | ⟨1, _⟩, hb => absurd rfl hb) rfl

/-! ## The eight columns `[4032, 1]`, read signed -/

theorem v37_toInt (k : Fin 4032) :
    (val_main_v37 (F := Ideal) (ix2 k 0) : BitVec 32).toInt = (val_main_v23 (F := Ideal) (ix1 k) : BitVec 32).toInt := by
  rw [val_main_v37_apply]
  have e : idx_main_v37 (ix2 k 0) = ix1 k := by
    funext a
    match a with
    | ⟨0, _⟩ => rfl
  rw [e, v31_apply]

theorem v38_toInt (k : Fin 4032) :
    (val_main_v38 (F := Ideal) (ix2 k 0) : BitVec 32).toInt = (val_main_v25 (F := Ideal) (ix1 k) : BitVec 32).toInt := by
  rw [val_main_v38_apply]
  have e : idx_main_v38 (ix2 k 0) = ix1 k := by
    funext a
    match a with
    | ⟨0, _⟩ => rfl
  rw [e, v36_apply]

theorem v51_toInt (k : Fin 4032) :
    (val_main_v51 (F := Ideal) (ix2 k 0) : BitVec 32).toInt = (val_main_v25 (F := Ideal) (ix1 k) : BitVec 32).toInt := by
  rw [val_main_v51_apply]
  have e : idx_main_v51 (ix2 k 0) = ix1 k := by
    funext a
    match a with
    | ⟨0, _⟩ => rfl
  rw [e, v45_apply]

theorem v52_toInt (k : Fin 4032) :
    (val_main_v52 (F := Ideal) (ix2 k 0) : BitVec 32).toInt = (val_main_v23 (F := Ideal) (ix1 k) : BitVec 32).toInt := by
  rw [val_main_v52_apply]
  have e : idx_main_v52 (ix2 k 0) = ix1 k := by
    funext a
    match a with
    | ⟨0, _⟩ => rfl
  rw [e, v50_apply]

theorem v70_toInt (k : Fin 4032) :
    (val_main_v70 (F := Ideal) (ix2 k 0) : BitVec 32).toInt = (val_main_v56 (F := Ideal) (ix1 k) : BitVec 32).toInt := by
  rw [val_main_v70_apply]
  have e : idx_main_v70 (ix2 k 0) = ix1 k := by
    funext a
    match a with
    | ⟨0, _⟩ => rfl
  rw [e, v64_apply]

theorem v71_toInt (k : Fin 4032) :
    (val_main_v71 (F := Ideal) (ix2 k 0) : BitVec 32).toInt = (val_main_v58 (F := Ideal) (ix1 k) : BitVec 32).toInt := by
  rw [val_main_v71_apply]
  have e : idx_main_v71 (ix2 k 0) = ix1 k := by
    funext a
    match a with
    | ⟨0, _⟩ => rfl
  rw [e, v69_apply]

theorem v84_toInt (k : Fin 4032) :
    (val_main_v84 (F := Ideal) (ix2 k 0) : BitVec 32).toInt = (val_main_v58 (F := Ideal) (ix1 k) : BitVec 32).toInt := by
  rw [val_main_v84_apply]
  have e : idx_main_v84 (ix2 k 0) = ix1 k := by
    funext a
    match a with
    | ⟨0, _⟩ => rfl
  rw [e, v78_apply]

theorem v85_toInt (k : Fin 4032) :
    (val_main_v85 (F := Ideal) (ix2 k 0) : BitVec 32).toInt = (val_main_v56 (F := Ideal) (ix1 k) : BitVec 32).toInt := by
  rw [val_main_v85_apply]
  have e : idx_main_v85 (ix2 k 0) = ix1 k := by
    funext a
    match a with
    | ⟨0, _⟩ => rfl
  rw [e, v83_apply]

/-! ## The four tables -/

/-- Table 1 (lower cell, upper cell of each vertical pair): row `k` is `(k + 64, k)`. -/
theorem tab_v39 (k : Fin 4032) :
    (val_main_v39 (F := Ideal) (ix2 k 0) : BitVec 32).toInt = ((k.val + 64 : ℕ) : ℤ)
    ∧ (val_main_v39 (F := Ideal) (ix2 k 1) : BitVec 32).toInt = ((k.val : ℕ) : ℤ) := by
  unfold val_main_v39
  constructor
  · rw [pair_left, v37_toInt, v23_toInt]
  · rw [pair_right, v38_toInt, v25_toInt]

/-- Table 2 (upper cell, lower cell): row `k` is `(k, k + 64)`. -/
theorem tab_v53 (k : Fin 4032) :
    (val_main_v53 (F := Ideal) (ix2 k 0) : BitVec 32).toInt = ((k.val : ℕ) : ℤ)
    ∧ (val_main_v53 (F := Ideal) (ix2 k 1) : BitVec 32).toInt = ((k.val + 64 : ℕ) : ℤ) := by
  unfold val_main_v53
  constructor
  · rw [pair_left, v51_toInt, v25_toInt]
  · rw [pair_right, v52_toInt, v23_toInt]

/-- Table 3 (left cell, right cell of each horizontal pair): row `k` is `(n, n + 1)`, `n = 64·(k / 63) + k % 63`. -/
theorem tab_v72 (k : Fin 4032) :
    (val_main_v72 (F := Ideal) (ix2 k 0) : BitVec 32).toInt = ((k.val / 63 * 64 + k.val % 63 : ℕ) : ℤ)
    ∧ (val_main_v72 (F := Ideal) (ix2 k 1) : BitVec 32).toInt = ((k.val / 63 * 64 + k.val % 63 + 1 : ℕ) : ℤ) := by
  unfold val_main_v72
  constructor
  · rw [pair_left, v70_toInt, v56_toInt]
  · rw [pair_right, v71_toInt, v58_toInt]

/-- Table 4 (right cell, left cell): row `k` is `(n + 1, n)`. -/
theorem tab_v86 (k : Fin 4032) :
    (val_main_v86 (F := Ideal) (ix2 k 0) : BitVec 32).toInt = ((k.val / 63 * 64 + k.val % 63 + 1 : ℕ) : ℤ)
    ∧ (val_main_v86 (F := Ideal) (ix2 k 1) : BitVec 32).toInt = ((k.val / 63 * 64 + k.val % 63 : ℕ) : ℤ) := by
  unfold val_main_v86
  constructor
  · rw [pair_left, v84_toInt, v58_toInt]
  · rw [pair_right, v85_toInt, v56_toInt]

end Cert.ReferenceIdeal.Tables

end
-- ==== Proof.RefValue.lean ====
/-
  The reference's result as the banded matrix. Four overwriting scatters into a zero matrix: the vertical weights
  at `(k + 64, k)` and at `(k, k + 64)`, the horizontal weights at `(n, n + 1)` and `(n + 1, n)` for
  `n = 64·(k / 63) + k % 63`. The four sets of positions are the off-diagonals `r − c = 64, −64, −1, 1` (the last
  two without the pairs that would cross from column 63 to column 0), each position named by exactly one `k`; so
  entry `(r, c)` is the one weight whose pair names it, and zero where none does.
-/
import proofs.«171796_j78520592106142_1_alg».proof.Proof.Gen.ReferenceIdeal.Read
import proofs.«171796_j78520592106142_1_alg».proof.Proof.LibScatterSet
import proofs.«171796_j78520592106142_1_alg».proof.Proof.RefTables
import proofs.«171796_j78520592106142_1_alg».proof.Proof.Spec

set_option maxRecDepth 16384

noncomputable section

namespace Cert.ReferenceIdeal.AdjValue

open Cert.ReferenceIdeal Cert.ReferenceIdeal.Read Idealize.ShloMosaic Idealize.ShloMosaic.ValueIdx Cert.Adj
open Cert.LibScatterSet Cert.ReferenceIdeal.Tables

/-- Every entry of the matrix the scatters start from is the zero weight. -/
theorem zero_at (i : S4x4096x4096.Idx) : val_main_v21 (F := Ideal) i = zf := by
  rw [val_main_v21_apply, val_main_cst_1_apply]; rfl

/-- The band function at an entry given by its coordinates. -/
theorem band_at {α : Type} (z : α) (dvf dhf : SF.Idx → α) (b : Fin 4) (r c : Fin 4096) :
    band z dvf dhf (ix3 b r c)
      = if r.val = c.val + 64 then dvf (ix2 b c)
        else if c.val = r.val + 64 then dvf (ix2 b r)
        else if c.val = r.val + 1 then dhf (ix2 b r)
        else if r.val = c.val + 1 then dhf (ix2 b c)
        else z := rfl

/-- The padded vertical weights at a node. -/
theorem padV_at {α : Type} (z : α) (dvr : SR.Idx → α) (b : Fin 4) (n : Fin 4096) :
    padV z dvr (ix2 b n) = if h : n.val < 4032 then dvr (ix2 b ⟨n.val, h⟩) else z := rfl

/-- The padded horizontal weights at a node. -/
theorem padH_at {α : Type} (z : α) (dhr : SR.Idx → α) (b : Fin 4) (n : Fin 4096) :
    padH z dhr (ix2 b n)
      = if h : n.val % 64 < 63 then
          dhr (ix2 b ⟨n.val / 64 * 63 + n.val % 64, by have h' : n.val < 4096 := n.isLt; omega⟩)
        else z := rfl

/-- First scatter, pairs `(k + 64, k)`: entry `(r, c)` is named exactly when `r = c + 64`, by `k = c`. -/
theorem v40_at (x0 : (⟨S4x3x1024x1024, .f32⟩ : BufTy).Contents (Elt Ideal)) (b : Fin 4) (r c : Fin 4096) :
    val_main_v40 (F := Ideal) x0 (ix3 b r c)
      = if h : r.val = c.val + 64 then
          val_main_v26 (F := Ideal) x0 (ix2 b ⟨c.val, by have h' : r.val < 4096 := r.isLt; omega⟩)
        else zf := by
  have hr4 : r.val < 4096 := r.isLt
  have hc4 : c.val < 4096 := c.isLt
  unfold val_main_v40
  by_cases h : r.val = c.val + 64
  · rw [dif_pos h]
    have hk : c.val < 4032 := by omega
    refine scatterSet_hit scatter_S4x4096x4096_S4032x2_S4x4032_0_12_12_1 rfl rfl rfl rfl _ _ _ b r c ⟨c.val, hk⟩ ?_ ?_ ?_
    · refine (tab_v39 ⟨c.val, hk⟩).1.trans ?_
      have : c.val + 64 = r.val := h.symm
      exact_mod_cast this
    · exact (tab_v39 ⟨c.val, hk⟩).2
    · intro k' _ h1
      have e1 : ((k'.val : ℕ) : ℤ) = (c.val : ℤ) := (tab_v39 k').2.symm.trans h1
      exact Fin.ext (by exact_mod_cast e1)
  · rw [dif_neg h]
    refine (scatterSet_miss scatter_S4x4096x4096_S4032x2_S4x4032_0_12_12_1 rfl rfl rfl rfl _ _ _ b r c ?_).trans (zero_at _)
    rintro k ⟨h0, h1⟩
    have e0 : ((k.val + 64 : ℕ) : ℤ) = (r.val : ℤ) := (tab_v39 k).1.symm.trans h0
    have e1 : ((k.val : ℕ) : ℤ) = (c.val : ℤ) := (tab_v39 k).2.symm.trans h1
    have e0' : k.val + 64 = r.val := by exact_mod_cast e0
    have e1' : k.val = c.val := by exact_mod_cast e1
    omega

/-- Second scatter, pairs `(k, k + 64)`: entry `(r, c)` is named exactly when `c = r + 64`, by `k = r`. -/
theorem v54_at (x0 : (⟨S4x3x1024x1024, .f32⟩ : BufTy).Contents (Elt Ideal)) (b : Fin 4) (r c : Fin 4096) :
    val_main_v54 (F := Ideal) x0 (ix3 b r c)
      = if h : c.val = r.val + 64 then
          val_main_v26 (F := Ideal) x0 (ix2 b ⟨r.val, by have h' : c.val < 4096 := c.isLt; omega⟩)
        else val_main_v40 (F := Ideal) x0 (ix3 b r c) := by
  have hr4 : r.val < 4096 := r.isLt
  have hc4 : c.val < 4096 := c.isLt
  unfold val_main_v54
  by_cases h : c.val = r.val + 64
  · rw [dif_pos h]
    have hk : r.val < 4032 := by omega
    refine scatterSet_hit scatter_S4x4096x4096_S4032x2_S4x4032_0_12_12_1 rfl rfl rfl rfl _ _ _ b r c ⟨r.val, hk⟩ ?_ ?_ ?_
    · exact (tab_v53 ⟨r.val, hk⟩).1
    · refine (tab_v53 ⟨r.val, hk⟩).2.trans ?_
      have : r.val + 64 = c.val := h.symm
      exact_mod_cast this
    · intro k' h0 _
      have e0 : ((k'.val : ℕ) : ℤ) = (r.val : ℤ) := (tab_v53 k').1.symm.trans h0
      exact Fin.ext (by exact_mod_cast e0)
  · rw [dif_neg h]
    refine scatterSet_miss scatter_S4x4096x4096_S4032x2_S4x4032_0_12_12_1 rfl rfl rfl rfl _ _ _ b r c ?_
    rintro k ⟨h0, h1⟩
    have e0 : ((k.val : ℕ) : ℤ) = (r.val : ℤ) := (tab_v53 k).1.symm.trans h0
    have e1 : ((k.val + 64 : ℕ) : ℤ) = (c.val : ℤ) := (tab_v53 k).2.symm.trans h1
    have e0' : k.val = r.val := by exact_mod_cast e0
    have e1' : k.val + 64 = c.val := by exact_mod_cast e1
    omega

/-- Third scatter, pairs `(n, n + 1)` with `n = 64·(k / 63) + k % 63`: entry `(r, c)` is named exactly when
    `c = r + 1` and `r` is not in the last column, by `k = 63·(r / 64) + r % 64`. -/
theorem v73_at (x0 : (⟨S4x3x1024x1024, .f32⟩ : BufTy).Contents (Elt Ideal)) (b : Fin 4) (r c : Fin 4096) :
    val_main_v73 (F := Ideal) x0 (ix3 b r c)
      = if h : c.val = r.val + 1 ∧ r.val % 64 < 63 then
          val_main_v59 (F := Ideal) x0
            (ix2 b ⟨r.val / 64 * 63 + r.val % 64, by have h' : r.val < 4096 := r.isLt; omega⟩)
        else val_main_v54 (F := Ideal) x0 (ix3 b r c) := by
  have hr4 : r.val < 4096 := r.isLt
  have hc4 : c.val < 4096 := c.isLt
  unfold val_main_v73
  by_cases h : c.val = r.val + 1 ∧ r.val % 64 < 63
  · rw [dif_pos h]
    obtain ⟨hcr, hm⟩ := h
    have hk : r.val / 64 * 63 + r.val % 64 < 4032 := by omega
    have hq : (r.val / 64 * 63 + r.val % 64) / 63 * 64 + (r.val / 64 * 63 + r.val % 64) % 63 = r.val := by omega
    refine scatterSet_hit scatter_S4x4096x4096_S4032x2_S4x4032_0_12_12_1 rfl rfl rfl rfl _ _ _ b r c ⟨r.val / 64 * 63 + r.val % 64, hk⟩ ?_ ?_ ?_
    · refine (tab_v72 ⟨_, hk⟩).1.trans ?_
      exact_mod_cast hq
    · refine (tab_v72 ⟨_, hk⟩).2.trans ?_
      have : (r.val / 64 * 63 + r.val % 64) / 63 * 64 + (r.val / 64 * 63 + r.val % 64) % 63 + 1 = c.val := by omega
      exact_mod_cast this
    · intro k' h0 _
      have hk' : k'.val < 4032 := k'.isLt
      have e0 : ((k'.val / 63 * 64 + k'.val % 63 : ℕ) : ℤ) = (r.val : ℤ) := (tab_v72 k').1.symm.trans h0
      have e0' : k'.val / 63 * 64 + k'.val % 63 = r.val := by exact_mod_cast e0
      exact Fin.ext (by show k'.val = r.val / 64 * 63 + r.val % 64; omega)
  · rw [dif_neg h]
    refine scatterSet_miss scatter_S4x4096x4096_S4032x2_S4x4032_0_12_12_1 rfl rfl rfl rfl _ _ _ b r c ?_
    rintro k ⟨h0, h1⟩
    have hk' : k.val < 4032 := k.isLt
    have e0 : ((k.val / 63 * 64 + k.val % 63 : ℕ) : ℤ) = (r.val : ℤ) := (tab_v72 k).1.symm.trans h0
    have e1 : ((k.val / 63 * 64 + k.val % 63 + 1 : ℕ) : ℤ) = (c.val : ℤ) := (tab_v72 k).2.symm.trans h1
    have e0' : k.val / 63 * 64 + k.val % 63 = r.val := by exact_mod_cast e0
    have e1' : k.val / 63 * 64 + k.val % 63 + 1 = c.val := by exact_mod_cast e1
    exact h ⟨by omega, by omega⟩

/-- Fourth scatter, pairs `(n + 1, n)`: entry `(r, c)` is named exactly when `r = c + 1` and `c` is not in the
    last column, by `k = 63·(c / 64) + c % 64`. -/
theorem v87_at (x0 : (⟨S4x3x1024x1024, .f32⟩ : BufTy).Contents (Elt Ideal)) (b : Fin 4) (r c : Fin 4096) :
    val_main_v87 (F := Ideal) x0 (ix3 b r c)
      = if h : r.val = c.val + 1 ∧ c.val % 64 < 63 then
          val_main_v59 (F := Ideal) x0
            (ix2 b ⟨c.val / 64 * 63 + c.val % 64, by have h' : c.val < 4096 := c.isLt; omega⟩)
        else val_main_v73 (F := Ideal) x0 (ix3 b r c) := by
  have hr4 : r.val < 4096 := r.isLt
  have hc4 : c.val < 4096 := c.isLt
  unfold val_main_v87
  by_cases h : r.val = c.val + 1 ∧ c.val % 64 < 63
  · rw [dif_pos h]
    obtain ⟨hrc, hm⟩ := h
    have hk : c.val / 64 * 63 + c.val % 64 < 4032 := by omega
    have hq : (c.val / 64 * 63 + c.val % 64) / 63 * 64 + (c.val / 64 * 63 + c.val % 64) % 63 = c.val := by omega
    refine scatterSet_hit scatter_S4x4096x4096_S4032x2_S4x4032_0_12_12_1 rfl rfl rfl rfl _ _ _ b r c ⟨c.val / 64 * 63 + c.val % 64, hk⟩ ?_ ?_ ?_
    · refine (tab_v86 ⟨_, hk⟩).1.trans ?_
      have : (c.val / 64 * 63 + c.val % 64) / 63 * 64 + (c.val / 64 * 63 + c.val % 64) % 63 + 1 = r.val := by omega
      exact_mod_cast this
    · refine (tab_v86 ⟨_, hk⟩).2.trans ?_
      exact_mod_cast hq
    · intro k' _ h1
      have hk' : k'.val < 4032 := k'.isLt
      have e1 : ((k'.val / 63 * 64 + k'.val % 63 : ℕ) : ℤ) = (c.val : ℤ) := (tab_v86 k').2.symm.trans h1
      have e1' : k'.val / 63 * 64 + k'.val % 63 = c.val := by exact_mod_cast e1
      exact Fin.ext (by show k'.val = c.val / 64 * 63 + c.val % 64; omega)
  · rw [dif_neg h]
    refine scatterSet_miss scatter_S4x4096x4096_S4032x2_S4x4032_0_12_12_1 rfl rfl rfl rfl _ _ _ b r c ?_
    rintro k ⟨h0, h1⟩
    have hk' : k.val < 4032 := k.isLt
    have e0 : ((k.val / 63 * 64 + k.val % 63 + 1 : ℕ) : ℤ) = (r.val : ℤ) := (tab_v86 k).1.symm.trans h0
    have e1 : ((k.val / 63 * 64 + k.val % 63 : ℕ) : ℤ) = (c.val : ℤ) := (tab_v86 k).2.symm.trans h1
    have e0' : k.val / 63 * 64 + k.val % 63 + 1 = r.val := by exact_mod_cast e0
    have e1' : k.val / 63 * 64 + k.val % 63 = c.val := by exact_mod_cast e1
    exact h ⟨by omega, by omega⟩

/-- The reference's matrix is the band function of its flat weights, padded. -/
theorem ref_final (x0 : (⟨S4x3x1024x1024, .f32⟩ : BufTy).Contents (Elt Ideal)) :
    val_main_v87 (F := Ideal) x0
      = band zf (padV zf (val_main_v26 (F := Ideal) x0)) (padH zf (val_main_v59 (F := Ideal) x0)) := by
  funext i
  obtain ⟨b, r, c, rfl⟩ : ∃ b r c, i = ix3 b r c := ⟨i 0, i 1, i 2, eq_ix3 i⟩
  have hr4 : r.val < 4096 := r.isLt
  have hc4 : c.val < 4096 := c.isLt
  rw [v87_at, v73_at, v54_at, v40_at, band_at, padV_at, padV_at, padH_at, padH_at]
  -- The four differences `r − c = 1, −1, −64, 64` exclude one another, a vertical weight's node lies below 4032
  -- because its partner `+ 64` is a node, and a horizontal pair whose left node is in the last column is named by
  -- no scatter and reads the padded zero: each branch is the same weight on both sides or contradicts arithmetic.
  split_ifs <;> first | (exfalso; omega) | rfl

end Cert.ReferenceIdeal.AdjValue

end
-- ==== Proof.lean ====
/-
  The kernel builds the adjacency matrix of a 64 × 64 grid graph from its edge weights tile by tile, by comparing
  row and column numbers; the reference scatters the same weights into a zero matrix. Both compute the weights from
  the argument by the same host operations. Each result is the band function `Cert.Adj.band` of the flat padded
  weights: the kernel's by reading the stored tiles (Proof/KernelBlock, Proof/KernelHost, Proof/KernelValue), the
  reference's by reading its four scatters at an index (Proof/LibScatterSet, Proof/RefTables, Proof/RefValue). No
  arithmetic on the weights is involved, so finiteness of the input is never used. The ideal pass rewrote nothing,
  so the kernel's idealization is its own text read over the extended reals.
-/
import proofs.«171796_j78520592106142_1_alg».proof.Defs
import proofs.«171796_j78520592106142_1_alg».proof.Proof.Gen.Kernel
import proofs.«171796_j78520592106142_1_alg».proof.Proof.Gen.KernelIdeal
import proofs.«171796_j78520592106142_1_alg».proof.Proof.Gen.ReferenceIdeal
import proofs.«171796_j78520592106142_1_alg».proof.Proof.Gen.Pre_finite_inputs
import proofs.«171796_j78520592106142_1_alg».proof.Proof.Gen.ReferenceIdeal.Run
import proofs.«171796_j78520592106142_1_alg».proof.Proof.Gen.ReferenceIdeal.Read
import proofs.«171796_j78520592106142_1_alg».proof.Proof.KernelFrame
import proofs.«171796_j78520592106142_1_alg».proof.Proof.KernelIdealFrame
import proofs.«171796_j78520592106142_1_alg».proof.Proof.KernelValue
import proofs.«171796_j78520592106142_1_alg».proof.Proof.RefValue
import Idealize.ShloMosaic.Adequacy
import Idealize.ShloMosaic.Init

noncomputable section

namespace Cert.Proof

open Idealize.ShloMosaic Idealize.SL.Sem

/-- The word-level kernel runs and leaves its argument alone. -/
theorem frame_k [Cert.Kernel.Facts] [Cert.Pre_finite_inputs.Facts] : Cert.frame_Kernel :=
  fun m ρ _ => Cert.Kernel.GenP.frame m ρ

/-- So does the kernel read over the extended reals. -/
theorem frame_ki [Cert.KernelIdeal.Facts] [Cert.Pre_finite_inputs.Facts] : Cert.frame_KernelIdeal :=
  fun m ρ _ => Cert.KernelIdeal.GenP.frame m ρ

/-- The reference is host operations only: its run, with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2.1)
    (Cert.ReferenceIdeal.Value.run (F := Ideal) m ρ)

/-- Both programs end with the band function of the flat padded weights of the (agreeing) arguments, and with the
    argument itself as second result. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Adj.band Cert.Adj.zf (Cert.KernelIdeal.AdjHost.dvf m c) (Cert.KernelIdeal.AdjHost.dhf m c),
    fun c => m ((c.tc : Thread Cert.KernelIdeal.nD Cert.KernelIdeal.τ).loc Cert.KernelIdeal.main_arg0), ?_, ?_⟩
  · exact (θ_run Cert.KernelIdeal.defs _ _).mono (fun r h c => ⟨(h c).1, (h c).2, (h c).2⟩)
      (Cert.KernelIdeal.AdjValue.run m ρ)
  · refine (θ_run Cert.ReferenceIdeal.defs _ _).mono (fun r h c => ⟨?_, (h c).2.1.trans (hagree c), (h c).2.1⟩)
      (Cert.ReferenceIdeal.Value.run (F := Ideal) m' ρ')
    rw [(h c).1, Cert.ReferenceIdeal.Read.val_main_v87_eq, Cert.ReferenceIdeal.AdjValue.ref_final, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
